-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S26x64 : Shape := ⟨2, ![26, 64]⟩
abbrev S64x512 : Shape := ⟨2, ![64, 512]⟩
abbrev S8x64 : Shape := ⟨2, ![8, 64]⟩
abbrev S1048576 : Shape := ⟨1, ![1048576]⟩
abbrev S_ : Shape := ⟨0, ![]⟩

class Facts : Prop where
  bcast_S_S26x64 : S_.BroadcastsInDim S26x64 (![] : Fin 0 → Fin S26x64.rank)
  reducesTo_S26x64_S_d0_1 : S26x64.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S8x64 : S_.BroadcastsInDim S8x64 (![] : Fin 0 → Fin S8x64.rank)
  reducesTo_S8x64_S_d0_1 : S8x64.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_arg4 : FVec F S8x64 .f32) (main_arg5 : IVec S1048576 32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S8x64 .f32 := Host.absf main_arg4
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_c_8 : IVec S_ 32 := constantI S_ 32 0#32
  let main_v24 : IVec S1048576 32 := broadcastInDim S1048576 ![] bcast_S_S1048576 main_c_8
  let main_v25 : IVec S1048576 1 := cmpi .sge main_arg5 main_v24
  let main_c_9 : IVec S_ 32 := constantI S_ 32 26#32
  let main_v26 : IVec S1048576 32 := broadcastInDim S1048576 ![] bcast_S_S1048576 main_c_9
  let main_v27 : IVec S1048576 1 := cmpi .slt main_arg5 main_v26
  let main_v28 : IVec S1048576 1 := andi main_v25 main_v27
  let main_c_10 : IVec S_ 1 := constantI S_ 1 1#1
  let main_v29 : IVec S_ 1 := (fun x v => Host.reduce IntOp.andi x v reducesTo_S1048576_S_d0 h_S_) main_v28 main_c_10
  let main_v30 : IVec S_ 1 := andi main_v23 main_v29
  main_v30

def fn {F : FTy → Type} [FloatOps F] (main_arg0 : FVec F S26x64 .f32) (main_arg1 : FVec F S64x512 .f32) (main_arg2 : FVec F S8x64 .f32) (main_arg3 : FVec F S8x64 .f32) (main_arg4 : FVec F S8x64 .f32) (main_arg5 : IVec S1048576 32) (main_arg6 : IVec S1048576 32) (main_arg7 : IVec S1048576 32) (main_arg8 : IVec S1048576 32) : IVec S_ 1 :=
  let main_v0 : FVec F S26x64 .f32 := Host.absf main_arg0
  let main_cst : FVec F S_ .f32 := constant S_ .f32 0x7F800000#32
  let main_v1 : FVec F S26x64 .f32 := broadcastInDim S26x64 ![] bcast_S_S26x64 main_cst
  let main_v2 : IVec S26x64 1 := cmpf .olt main_v0 main_v1
  let main_c : IVec S_ 1 := constantI S_ 1 1#1
  let main_v3 : IVec S_ 1 := (fun x v => Host.reduce IntOp.andi x v reducesTo_S26x64_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S8x64 .f32 := Host.absf main_arg2
  let main_cst_2 : FVec F S_ .f32 := constant S_ .f32 0x7F800000#32
  let main_v10 : FVec F S8x64 .f32 := broadcastInDim S8x64 ![] bcast_S_S8x64 main_cst_2
  let main_v11 : IVec S8x64 1 := cmpf .olt main_v9 main_v10
  let main_c_3 : IVec S_ 1 := constantI S_ 1 1#1
  let main_v12 : IVec S_ 1 := (fun x v => Host.reduce IntOp.andi x v reducesTo_S8x64_S_d0_1 h_S_) main_v11 main_c_3
  let main_v13 : IVec S_ 1 := andi main_v8 main_v12
  let main_v14 : FVec F S8x64 .f32 := Host.absf main_arg3
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg4 main_arg5 main_v13 main_v16
-- ==== Kernel.lean ====
abbrev S26x64 : Shape := ⟨2, ![26, 64]⟩
abbrev S64x512 : Shape := ⟨2, ![64, 512]⟩
abbrev S8x64 : Shape := ⟨2, ![8, 64]⟩
abbrev S1048576 : Shape := ⟨1, ![1048576]⟩
abbrev S64x8 : Shape := ⟨2, ![64, 8]⟩
abbrev S26x8 : Shape := ⟨2, ![26, 8]⟩
abbrev S26x24 : Shape := ⟨2, ![26, 24]⟩
abbrev S512x64 : Shape := ⟨2, ![512, 64]⟩
abbrev S256x2x64 : Shape := ⟨3, ![256, 2, 64]⟩
abbrev S256x128 : Shape := ⟨2, ![256, 128]⟩
abbrev S1048576x64 : Shape := ⟨2, ![1048576, 64]⟩
abbrev S4096 : Shape := ⟨1, ![4096]⟩
abbrev S4096x64 : Shape := ⟨2, ![4096, 64]⟩
abbrev S4096x26 : Shape := ⟨2, ![4096, 26]⟩
abbrev S4096x1 : Shape := ⟨2, ![4096, 1]⟩
abbrev S4096x24 : Shape := ⟨2, ![4096, 24]⟩
abbrev S4096x8 : Shape := ⟨2, ![4096, 8]⟩
abbrev S4096x256 : Shape := ⟨2, ![4096, 256]⟩
abbrev S4096x128 : Shape := ⟨2, ![4096, 128]⟩

abbrev nBuf : Space → Nat
  | .hbm => 21
  | .vmem => 12
  | .smem => 0
  | _ => 0

abbrev bufTy : (tb : Table) → Fin (tcTables nBuf tb) → BufTy
  | .hbm, ⟨0, _⟩ => ⟨S26x64, .f32⟩
  | .hbm, ⟨1, _⟩ => ⟨S64x512, .f32⟩
  | .hbm, ⟨2, _⟩ => ⟨S8x64, .f32⟩
  | .hbm, ⟨3, _⟩ => ⟨S8x64, .f32⟩
  | .hbm, ⟨4, _⟩ => ⟨S8x64, .f32⟩
  | .hbm, ⟨5, _⟩ => ⟨S1048576, .i32⟩
  | .hbm, ⟨6, _⟩ => ⟨S1048576, .i32⟩
  | .hbm, ⟨7, _⟩ => ⟨S1048576, .i32⟩
  | .hbm, ⟨8, _⟩ => ⟨S1048576, .i32⟩
  | .hbm, ⟨9, _⟩ => ⟨S64x8, .f32⟩
  | .hbm, ⟨10, _⟩ => ⟨S26x8, .f32⟩
  | .hbm, ⟨11, _⟩ => ⟨S64x8, .f32⟩
  | .hbm, ⟨12, _⟩ => ⟨S26x8, .f32⟩
  | .hbm, ⟨13, _⟩ => ⟨S64x8, .f32⟩
  | .hbm, ⟨14, _⟩ => ⟨S26x8, .f32⟩
  | .hbm, ⟨15, _⟩ => ⟨S26x24, .f32⟩
  | .hbm, ⟨16, _⟩ => ⟨S512x64, .f32⟩
  | .hbm, ⟨17, _⟩ => ⟨S256x2x64, .f32⟩
  | .hbm, ⟨18, _⟩ => ⟨S256x128, .f32⟩
  | .hbm, ⟨19, _⟩ => ⟨S256x128, .bf16⟩
  | .hbm, ⟨20, _⟩ => ⟨S1048576x64, .f32⟩
  | .local _ .vmem, ⟨0, _⟩ => ⟨S4096, .i32⟩
  | .local _ .vmem, ⟨1, _⟩ => ⟨S4096, .i32⟩
  | .local _ .vmem, ⟨2, _⟩ => ⟨S4096, .i32⟩
  | .local _ .vmem, ⟨3, _⟩ => ⟨S4096, .i32⟩
  | .local _ .vmem, ⟨4, _⟩ => ⟨S4096, .i32⟩
  | .local _ .vmem, ⟨5, _⟩ => ⟨S4096, .i32⟩
  | .local _ .vmem, ⟨6, _⟩ => ⟨S4096, .i32⟩
  | .local _ .vmem, ⟨7, _⟩ => ⟨S4096, .i32⟩
  | .local _ .vmem, ⟨8, _⟩ => ⟨S26x24, .f32⟩
  | .local _ .vmem, ⟨9, _⟩ => ⟨S256x128, .bf16⟩
  | .local _ .vmem, ⟨10, _⟩ => ⟨S4096x64, .f32⟩
  | .local _ .vmem, ⟨11, _⟩ => ⟨S4096x64, .f32⟩
  | _, _ => ⟨S26x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S26x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S8x64_S64x8_1_0 : S8x64.Transposes [1, 0] S64x8
  concatenates_S26x8_S26x8_S26x8_S26x24_d1 : Shape.Concatenates [S26x8, S26x8, S26x8] S26x24 1
  transposes_S64x512_S512x64_1_0 : S64x512.Transposes [1, 0] S512x64
  shapeCasts_S512x64_S256x2x64 : S512x64.ShapeCasts S256x2x64
  shapeCasts_S256x2x64_S256x128 : S256x2x64.ShapeCasts S256x128
  bitsLt_bf16_f32 : FTy.bits .bf16 < FTy.bits .f32
  inb_S4096_S4096_0 : ∀ a, (![0] : Fin 1 → Nat) a + S4096.size a ≤ S4096.size a
  h_S4096 : 0 < S4096.numel
  iota_S4096x26_d1_w32 : S4096x26.Iotas .tc 32 [1]
  shapeCasts_S4096_S4096x1 : S4096.ShapeCasts S4096x1
  broadcasts_S4096x1_S4096x26 : S4096x1.Broadcasts S4096x26
  natLt_1_32 : 1 < 32
  inb_S26x24_S26x24_0_0 : ∀ a, (![0, 0] : Fin 2 → Nat) a + S26x24.size a ≤ S26x24.size a
  h_S26x24 : 0 < S26x24.numel
  shapeCasts_S26x24_S26x24 : S26x24.ShapeCasts S26x24
  slices_S4096x24_o0_0_S4096x8 : S4096x24.Slices ![0, 0] S4096x8
  slices_S4096x24_o0_8_S4096x8 : S4096x24.Slices ![0, 8] S4096x8
  slices_S4096x24_o0_16_S4096x8 : S4096x24.Slices ![0, 16] S4096x8
  iota_S4096x8_d1_w32 : S4096x8.Iotas .tc 32 [1]
  broadcasts_S4096x1_S4096x8 : S4096x1.Broadcasts S4096x8
  reduces_S4096x8_S4096 : S4096x8.Reduces [1] S4096
  iota_S4096x256_d1_w32 : S4096x256.Iotas .tc 32 [1]
  broadcasts_S4096x1_S4096x256 : S4096x1.Broadcasts S4096x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  slices_S4096x128_o0_0_S4096x64 : S4096x128.Slices ![0, 0] S4096x64
  broadcasts_S4096x1_S4096x64 : S4096x1.Broadcasts S4096x64
  slices_S4096x128_o0_64_S4096x64 : S4096x128.Slices ![0, 64] S4096x64
  inb_S4096x64_S4096x64_0_0 : ∀ a, (![0, 0] : Fin 2 → Nat) a + S4096x64.size a ≤ S4096x64.size a
  h_S4096x64 : 0 < S4096x64.numel
  dot_S26x64_S64x8_S26x8_1_0_0_1_n_n_wf : DotDims.WF S26x64 S64x8 S26x8 [1] [0] [0] [1] [] []
  dot_S4096x26_S26x24_S4096x24_1_0_0_1_n_n_wf : DotDims.WF S4096x26 S26x24 S4096x24 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S1048576.size a
  hwx0_0 : ∀ i : grid0.Coords, EltTy.bits .i32 = 32 ∨ (Rect.block (s := S1048576) S4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S1048576.size a
  hwx0_1 : ∀ i : grid0.Coords, EltTy.bits .i32 = 32 ∨ (Rect.block (s := S1048576) S4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S1048576.size a
  hwx0_2 : ∀ i : grid0.Coords, EltTy.bits .i32 = 32 ∨ (Rect.block (s := S1048576) S4096.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S1048576.size a
  hwx0_3 : ∀ i : grid0.Coords, EltTy.bits .i32 = 32 ∨ (Rect.block (s := S1048576) S4096.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S26x24.size a ≤ S26x24.size a
  hwx0_4 : ∀ i : grid0.Coords, EltTy.bits .f32 = 32 ∨ (Rect.block (s := S26x24) S26x24.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S1048576x64.size a
  hwx0_6 : ∀ i : grid0.Coords, EltTy.bits .f32 = 32 ∨ (Rect.block (s := S1048576x64) S4096x64.size (cc0_transform_6 i) (hinb0_6 i)).WholeWords (EltTy.packing .f32)

variable [Facts₀]

def dot_S26x64_S64x8_S26x8_1_0_0_1_n_n : DotDims S26x64 S64x8 S26x8 where
  lhsContracting := [1]
  rhsContracting := [0]
  lhsNonContracting := [0]
  rhsNonContracting := [1]
  lhsBatch := []
  rhsBatch := []
  wf := dot_S26x64_S64x8_S26x8_1_0_0_1_n_n_wf
def dot_S4096x26_S26x24_S4096x24_1_0_0_1_n_n : DotDims S4096x26 S26x24 S4096x24 where
  lhsContracting := [1]
  rhsContracting := [0]
  lhsNonContracting := [0]
  rhsNonContracting := [1]
  lhsBatch := []
  rhsBatch := []
  wf := dot_S4096x26_S26x24_S4096x24_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg5) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S26x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S4096x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S26x64 : Shape := ⟨2, ![26, 64]⟩
abbrev S64x512 : Shape := ⟨2, ![64, 512]⟩
abbrev S8x64 : Shape := ⟨2, ![8, 64]⟩
abbrev S1048576 : Shape := ⟨1, ![1048576]⟩
abbrev S_ : Shape := ⟨0, ![]⟩
abbrev S1048576x1 : Shape := ⟨2, ![1048576, 1]⟩
abbrev S1048576x64 : Shape := ⟨2, ![1048576, 64]⟩
abbrev S512x64 : Shape := ⟨2, ![512, 64]⟩

abbrev nBuf : Space → Nat
  | .hbm => 143
  | .vmem => 0
  | .smem => 0
  | _ => 0

abbrev hbmTy0_0 (i : Nat) : BufTy := match i % 128 with
  | 0 => ⟨S26x64, .f32⟩
  | 1 => ⟨S64x512, .f32⟩
  | 2 => ⟨S8x64, .f32⟩
  | 3 => ⟨S8x64, .f32⟩
  | 4 => ⟨S8x64, .f32⟩
  | 5 => ⟨S1048576, .i32⟩
  | 6 => ⟨S1048576, .i32⟩
  | 7 => ⟨S1048576, .i32⟩
  | 8 => ⟨S1048576, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S1048576, .i32⟩
  | 16 => ⟨S1048576, .i32⟩
  | 17 => ⟨S_, .i32⟩
  | 18 => ⟨S1048576, .i32⟩
  | 19 => ⟨S1048576, .i1⟩
  | 20 => ⟨S_, .i32⟩
  | 21 => ⟨S1048576, .i32⟩
  | 22 => ⟨S1048576, .i1⟩
  | 23 => ⟨S_, .i32⟩
  | 24 => ⟨S_, .i1⟩
  | 25 => ⟨S1048576, .i1⟩
  | 26 => ⟨S1048576, .i1⟩
  | 27 => ⟨S1048576, .i1⟩
  | 28 => ⟨S1048576, .i32⟩
  | 29 => ⟨S1048576, .i32⟩
  | 30 => ⟨S1048576, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S1048576, .i32⟩
  | 38 => ⟨S1048576, .i32⟩
  | 39 => ⟨S_, .i32⟩
  | 40 => ⟨S1048576, .i32⟩
  | 41 => ⟨S1048576, .i1⟩
  | 42 => ⟨S_, .i32⟩
  | 43 => ⟨S1048576, .i32⟩
  | 44 => ⟨S1048576, .i1⟩
  | 45 => ⟨S_, .i32⟩
  | 46 => ⟨S_, .i1⟩
  | 47 => ⟨S1048576, .i1⟩
  | 48 => ⟨S1048576, .i1⟩
  | 49 => ⟨S1048576, .i1⟩
  | 50 => ⟨S1048576, .i32⟩
  | 51 => ⟨S1048576, .i32⟩
  | 52 => ⟨S1048576, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1048576, .i32⟩
  | 60 => ⟨S1048576, .i32⟩
  | 61 => ⟨S_, .i32⟩
  | 62 => ⟨S1048576, .i32⟩
  | 63 => ⟨S1048576, .i1⟩
  | 64 => ⟨S_, .i32⟩
  | 65 => ⟨S1048576, .i32⟩
  | 66 => ⟨S1048576, .i1⟩
  | 67 => ⟨S_, .i32⟩
  | 68 => ⟨S_, .i1⟩
  | 69 => ⟨S1048576, .i1⟩
  | 70 => ⟨S1048576, .i1⟩
  | 71 => ⟨S1048576, .i1⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S1048576x1, .i32⟩
  | 83 => ⟨S1048576x64, .f32⟩
  | 84 => ⟨S_, .i32⟩
  | 85 => ⟨S1048576, .i32⟩
  | 86 => ⟨S1048576, .i1⟩
  | 87 => ⟨S_, .i32⟩
  | 88 => ⟨S1048576, .i32⟩
  | 89 => ⟨S1048576, .i32⟩
  | 90 => ⟨S1048576, .i32⟩
  | 91 => ⟨S1048576x1, .i32⟩
  | 92 => ⟨S1048576x64, .f32⟩
  | 93 => ⟨S1048576x64, .f32⟩
  | 94 => ⟨S_, .f32⟩
  | 95 => ⟨S1048576, .f32⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i32⟩
  | 102 => ⟨S1048576, .i32⟩
  | 103 => ⟨S1048576x1, .i32⟩
  | 104 => ⟨S1048576x64, .f32⟩
  | 105 => ⟨S1048576x64, .f32⟩
  | 106 => ⟨S_, .f32⟩
  | 107 => ⟨S1048576, .f32⟩
  | 108 => ⟨S_, .i32⟩
  | 109 => ⟨S1048576, .i32⟩
  | 110 => ⟨S1048576, .i1⟩
  | 111 => ⟨S_, .i32⟩
  | 112 => ⟨S1048576, .i32⟩
  | 113 => ⟨S1048576, .i32⟩
  | 114 => ⟨S1048576, .i32⟩
  | 115 => ⟨S1048576x1, .i32⟩
  | 116 => ⟨S1048576x64, .f32⟩
  | 117 => ⟨S1048576x64, .f32⟩
  | 118 => ⟨S_, .f32⟩
  | 119 => ⟨S1048576, .f32⟩
  | 120 => ⟨S1048576, .f32⟩
  | 121 => ⟨S1048576, .f32⟩
  | 122 => ⟨S_, .i32⟩
  | 123 => ⟨S1048576, .i32⟩
  | 124 => ⟨S1048576, .i32⟩
  | 125 => ⟨S_, .i32⟩
  | 126 => ⟨S1048576, .i32⟩
  | 127 => ⟨S1048576, .i32⟩
  | _ => ⟨S26x64, .f32⟩

abbrev hbmTy0_1 (i : Nat) : BufTy := match i % 128 with
  | 0 => ⟨S1048576, .i32⟩
  | 1 => ⟨S1048576, .i32⟩
  | 2 => ⟨S512x64, .f32⟩
  | 3 => ⟨S_, .i32⟩
  | 4 => ⟨S1048576, .i32⟩
  | 5 => ⟨S1048576, .i1⟩
  | 6 => ⟨S_, .i32⟩
  | 7 => ⟨S1048576, .i32⟩
  | 8 => ⟨S1048576, .i32⟩
  | 9 => ⟨S1048576, .i32⟩
  | 10 => ⟨S1048576x1, .i32⟩
  | 11 => ⟨S1048576x64, .f32⟩
  | 12 => ⟨S1048576x1, .f32⟩
  | 13 => ⟨S1048576x64, .f32⟩
  | 14 => ⟨S1048576x64, .f32⟩
  | _ => ⟨S26x64, .f32⟩

abbrev hbmTy (i : Nat) : BufTy := match i / 128 with
  | 0 => hbmTy0_0 i
  | 1 => hbmTy0_1 i
  | _ => ⟨S26x64, .f32⟩

abbrev bufTy : (tb : Table) → Fin (tcTables nBuf tb) → BufTy
  | .hbm, ⟨i, _⟩ => hbmTy i
  | _, _ => ⟨S26x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v0 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v1 : Ref sig .tc := ⟨.hbm, 52, rfl⟩
abbrev main_c_1 : Ref sig .tc := ⟨.hbm, 53, rfl⟩
abbrev main_call2_v0 : Ref sig .tc := ⟨.hbm, 54, rfl⟩
abbrev main_call2_c : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_c_1 : Ref sig .tc := ⟨.hbm, 61, rfl⟩
abbrev main_call2_v5 : Ref sig .tc := ⟨.hbm, 62, rfl⟩
abbrev main_call2_v6 : Ref sig .tc := ⟨.hbm, 63, rfl⟩
abbrev main_call2_c_2 : Ref sig .tc := ⟨.hbm, 64, rfl⟩
abbrev main_call2_v7 : Ref sig .tc := ⟨.hbm, 65, rfl⟩
abbrev main_call2_v8 : Ref sig .tc := ⟨.hbm, 66, rfl⟩
abbrev main_call2_c_3 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_v2 : Ref sig .tc := ⟨.hbm, 74, rfl⟩
abbrev main_c_2 : Ref sig .tc := ⟨.hbm, 75, rfl⟩
abbrev main_v3 : Ref sig .tc := ⟨.hbm, 76, rfl⟩
abbrev main_v4 : Ref sig .tc := ⟨.hbm, 77, rfl⟩
abbrev main_c_3 : Ref sig .tc := ⟨.hbm, 78, rfl⟩
abbrev main_v5 : Ref sig .tc := ⟨.hbm, 79, rfl⟩
abbrev main_v6 : Ref sig .tc := ⟨.hbm, 80, rfl⟩
abbrev main_v7 : Ref sig .tc := ⟨.hbm, 81, rfl⟩
abbrev main_v8 : Ref sig .tc := ⟨.hbm, 82, rfl⟩
abbrev main_v9 : Ref sig .tc := ⟨.hbm, 83, rfl⟩
abbrev main_c_4 : Ref sig .tc := ⟨.hbm, 84, rfl⟩
abbrev main_v10 : Ref sig .tc := ⟨.hbm, 85, rfl⟩
abbrev main_v11 : Ref sig .tc := ⟨.hbm, 86, rfl⟩
abbrev main_c_5 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_v17 : Ref sig .tc := ⟨.hbm, 93, rfl⟩
abbrev main_cst : Ref sig .tc := ⟨.hbm, 94, rfl⟩
abbrev main_v18 : Ref sig .tc := ⟨.hbm, 95, rfl⟩
abbrev main_c_6 : Ref sig .tc := ⟨.hbm, 96, rfl⟩
abbrev main_v19 : Ref sig .tc := ⟨.hbm, 97, rfl⟩
abbrev main_v20 : Ref sig .tc := ⟨.hbm, 98, rfl⟩
abbrev main_c_7 : Ref sig .tc := ⟨.hbm, 99, rfl⟩
abbrev main_v21 : Ref sig .tc := ⟨.hbm, 100, rfl⟩
abbrev main_v22 : Ref sig .tc := ⟨.hbm, 101, rfl⟩
abbrev main_v23 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_cst_8 : Ref sig .tc := ⟨.hbm, 106, rfl⟩
abbrev main_v27 : Ref sig .tc := ⟨.hbm, 107, rfl⟩
abbrev main_c_9 : Ref sig .tc := ⟨.hbm, 108, rfl⟩
abbrev main_v28 : Ref sig .tc := ⟨.hbm, 109, rfl⟩
abbrev main_v29 : Ref sig .tc := ⟨.hbm, 110, rfl⟩
abbrev main_c_10 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_v35 : Ref sig .tc := ⟨.hbm, 117, rfl⟩
abbrev main_cst_11 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_c_12 : Ref sig .tc := ⟨.hbm, 122, rfl⟩
abbrev main_v39 : Ref sig .tc := ⟨.hbm, 123, rfl⟩
abbrev main_v40 : Ref sig .tc := ⟨.hbm, 124, rfl⟩
abbrev main_c_13 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_c_14 : Ref sig .tc := ⟨.hbm, 131, rfl⟩
abbrev main_v46 : Ref sig .tc := ⟨.hbm, 132, rfl⟩
abbrev main_v47 : Ref sig .tc := ⟨.hbm, 133, rfl⟩
abbrev main_c_15 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  reducesTo_S1048576x64_S1048576_d1 : S1048576x64.ReducesTo [1] S1048576
  h_S_ : 0 < S_.numel
  transposes_S64x512_S512x64_1_0 : S64x512.Transposes [1, 0] S512x64
  bcast_S1048576x1_S1048576x64_0_1 : S1048576x1.BroadcastsInDim S1048576x64 (![0, 1] : Fin 2 → Fin S1048576x64.rank)
  gather_S26x64_S1048576x1_S1048576x64_1_0_n_n_0_1_164_wf : GatherDims.WF S26x64 S1048576x1 S1048576x64 [1] [0] [] [0] [] 1 ![1, 64]
  gather_S8x64_S1048576x1_S1048576x64_1_0_n_n_0_1_164_wf : GatherDims.WF S8x64 S1048576x1 S1048576x64 [1] [0] [] [0] [] 1 ![1, 64]
  gather_S512x64_S1048576x1_S1048576x64_1_0_n_n_0_1_164_wf : GatherDims.WF S512x64 S1048576x1 S1048576x64 [1] [0] [] [0] [] 1 ![1, 64]

variable [Facts₀]

def gather_S26x64_S1048576x1_S1048576x64_1_0_n_n_0_1_164 : GatherDims S26x64 S1048576x1 S1048576x64 where
  offsetDims := [1]
  collapsedSliceDims := [0]
  operandBatchingDims := []
  startIndicesBatchingDims := []
  startIndexMap := [0]
  indexVectorDim := 1
  sliceSizes := ![1, 64]
  wf := gather_S26x64_S1048576x1_S1048576x64_1_0_n_n_0_1_164_wf
def gather_S8x64_S1048576x1_S1048576x64_1_0_n_n_0_1_164 : GatherDims S8x64 S1048576x1 S1048576x64 where
  offsetDims := [1]
  collapsedSliceDims := [0]
  operandBatchingDims := []
  startIndicesBatchingDims := []
  startIndexMap := [0]
  indexVectorDim := 1
  sliceSizes := ![1, 64]
  wf := gather_S8x64_S1048576x1_S1048576x64_1_0_n_n_0_1_164_wf
def gather_S512x64_S1048576x1_S1048576x64_1_0_n_n_0_1_164 : GatherDims S512x64 S1048576x1 S1048576x64 where
  offsetDims := [1]
  collapsedSliceDims := [0]
  operandBatchingDims := []
  startIndicesBatchingDims := []
  startIndexMap := [0]
  indexVectorDim := 1
  sliceSizes := ![1, 64]
  wf := gather_S512x64_S1048576x1_S1048576x64_1_0_n_n_0_1_164_wf

class Facts : Prop extends Facts₀ where

variable [Facts]
-- ==== Proof.KernelFrame.lean ====
import proofs.«402731_j85882166050871_3_alg».proof.Proof.Gen.Kernel.Launch
import proofs.«402731_j85882166050871_3_alg».proof.Proof.Gen.Kernel.Skeleton
import proofs.«402731_j85882166050871_3_alg».proof.Proof.Gen.Kernel.Points
import Idealize.ShloMosaic.Lib.Pipeline.FrameBody
import Idealize.ShloMosaic.Lib.Ring
import Idealize.ShloMosaic.Lib.Tactic

/-!
# The frame of the one-region program

@main is eleven host operations (three table products, their concatenation into one 26 x 24 table, and the
coefficient matrix transposed, paired row by row and narrowed) followed by one region on a grid of 256 points.
At every point the body loads four blocks of 4096 index words and the two resident tables, and stores one
4096 x 64 block computed from them; nothing is carried between points.

This module states, for either float instance: the buffers' contents when the region is entered (the fold of
the host operations over the launch memory), each window's block at a point, what the body leaves in the output
block as a function of the input blocks, the body's triple, the per-point obligation, and the run of @main with
every output array named and every other buffer as the region found it.
-/

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the eleven host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not
    (an unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not
    (an unfetched window's block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not
    (an unfetched window's block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not
    (an unfetched window's block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or not
    (an unfetched window's block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or not
    (an unfetched window's block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run ending with every window's array at the
    data's final contents and every other buffer as the region found it leaves the nine argument arrays as launched:
    the four index arrays are input windows' arrays, the five float arrays are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 0).trans (((dats 0 c).arrAt_in 0 rfl _).trans ((hA c 0).trans (V_main_arg5 m c))),
      ((h c).1 1).trans (((dats 0 c).arrAt_in 1 rfl _).trans ((hA c 1).trans (V_main_arg6 m c))),
      ((h c).1 2).trans (((dats 0 c).arrAt_in 2 rfl _).trans ((hA c 2).trans (V_main_arg7 m c))),
      ((h c).1 3).trans (((dats 0 c).arrAt_in 3 rfl _).trans ((hA c 3).trans (V_main_arg8 m c)))⟩) h

/-! ## The body's accesses -/

/-- The whole block of 4096 index words. -/
abbrev rIdx : Rect S4096 := Rect.unit (s := S4096) ![0] S4096.size inb_S4096_S4096_0
/-- The whole 26 x 24 table. -/
abbrev rTab : Rect S26x24 := Rect.unit (s := S26x24) ![0, 0] S26x24.size inb_S26x24_S26x24_0_0
/-- The whole 256 x 128 table. -/
abbrev rCoef : Rect S256x128 := Rect.unit (s := S256x128) ![0, 0] S256x128.size inb_S256x128_S256x128_0_0
/-- The whole 4096 x 64 output block. -/
abbrev rOut : Rect S4096x64 := Rect.unit (s := S4096x64) ![0, 0] S4096x64.size inb_S4096x64_S4096x64_0_0

/-! ## What the body leaves in the output window's buffer -/

/-- The output block after the body, from the six input blocks: one store of the whole block, its value the
    product of the three selected table entries with the selected coefficient row. -/
def outBlk (x0 x1 x2 x3 : Vec F S4096 .i32) (x4 : Vec F S26x24 .f32) (x5 : Vec F S256x128 .bf16) : Vec F S4096x64 .f32 :=
  View.canon [⟨rOut, k0_pay1 (k0_pay2 (View.ld x1 rIdx)) (k0_pay3 (View.ld x2 rIdx)) (k0_pay4 (View.ld x3 rIdx))
    (k0_pay5 (View.ld x0 rIdx) (View.ld x1 rIdx) (View.ld x2 rIdx) (View.ld x3 rIdx) (View.ld x4 rTab)) (View.ld x5 rCoef)⟩]

/-- The one store covers the block. -/
theorem coverOut (p0 : Vec F S4096x64 .f32) (y : S4096x64.Idx) :
    ∃ pc ∈ ([⟨rOut, p0⟩] : List (View.Piece (Elt F) S4096x64 .f32)), y ∈ pc.1.set :=
  View.cover_of_tiled [⟨rOut, p0⟩] S4096x64.size (by rfl) y

/-! ## The body's triple -/

set_option maxHeartbeats 4000000 in
/-- The body on whole staging memrefs, the inputs' at contents `xW` and the output's at anything, runs to the
    continuation with the inputs' as they were and the output's at `outBlk` of the inputs'. -/
theorem sound_kernel (c : Dev nD) (E : Set ℕ) (i : grid0.Coords)
    (arg1 : Memref sig .tc .vmem S4096 .i32) (harg1 : arg1.IsWhole) (arg2 : Memref sig .tc .vmem S4096 .i32) (harg2 : arg2.IsWhole)
    (arg3 : Memref sig .tc .vmem S4096 .i32) (harg3 : arg3.IsWhole) (arg4 : Memref sig .tc .vmem S4096 .i32) (harg4 : arg4.IsWhole)
    (arg5 : Memref sig .tc .vmem S26x24 .f32) (harg5 : arg5.IsWhole) (arg6 : Memref sig .tc .vmem S256x128 .bf16) (harg6 : arg6.IsWhole)
    (arg7 : Memref sig .tc .vmem S4096x64 .f32) (harg7 : arg7.IsWhole)
    (x0 x1 x2 x3 : Vec F S4096 .i32) (x4 : Vec F S26x24 .f32) (x5 : Vec F S256x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (coverOut _)

/-! ## The pipeline's proof data -/

/-- The proof data on core `c`: the arrays as the region finds them; after the body at point `t` each input's
    buffer at its block and the output's at `outBlk` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The per-point obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, faults nowhere, and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Frm

end
-- ==== Proof.KernelIdealFrame.lean ====
import proofs.«402731_j85882166050871_3_alg».proof.Proof.Gen.KernelIdeal.Launch
import proofs.«402731_j85882166050871_3_alg».proof.Proof.Gen.KernelIdeal.Skeleton
import proofs.«402731_j85882166050871_3_alg».proof.Proof.Gen.KernelIdeal.Points
import Idealize.ShloMosaic.Lib.Pipeline.FrameBody
import Idealize.ShloMosaic.Lib.Ring
import Idealize.ShloMosaic.Lib.Tactic

/-!
# The frame of the one-region program

@main is eleven host operations (three table products, their concatenation into one 26 x 24 table, and the
coefficient matrix transposed, paired row by row and narrowed) followed by one region on a grid of 256 points.
At every point the body loads four blocks of 4096 index words and the two resident tables, and stores one
4096 x 64 block computed from them; nothing is carried between points.

This module states, for either float instance: the buffers' contents when the region is entered (the fold of
the host operations over the launch memory), each window's block at a point, what the body leaves in the output
block as a function of the input blocks, the body's triple, the per-point obligation, and the run of @main with
every output array named and every other buffer as the region found it.
-/

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the eleven host operations. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, whether the point fetches it or not
    (an unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether the point fetches it or not
    (an unfetched window's block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether the point fetches it or not
    (an unfetched window's block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether the point fetches it or not
    (an unfetched window's block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether the point fetches it or not
    (an unfetched window's block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether the point fetches it or not
    (an unfetched window's block index has not moved). -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- For any proof data whose arrays are the region-entry contents, a run ending with every window's array at the
    data's final contents and every other buffer as the region found it leaves the nine argument arrays as launched:
    the four index arrays are input windows' arrays, the five float arrays are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 0).trans (((dats 0 c).arrAt_in 0 rfl _).trans ((hA c 0).trans (V_main_arg5 m c))),
      ((h c).1 1).trans (((dats 0 c).arrAt_in 1 rfl _).trans ((hA c 1).trans (V_main_arg6 m c))),
      ((h c).1 2).trans (((dats 0 c).arrAt_in 2 rfl _).trans ((hA c 2).trans (V_main_arg7 m c))),
      ((h c).1 3).trans (((dats 0 c).arrAt_in 3 rfl _).trans ((hA c 3).trans (V_main_arg8 m c)))⟩) h

/-! ## The body's accesses -/

/-- The whole block of 4096 index words. -/
abbrev rIdx : Rect S4096 := Rect.unit (s := S4096) ![0] S4096.size inb_S4096_S4096_0
/-- The whole 26 x 24 table. -/
abbrev rTab : Rect S26x24 := Rect.unit (s := S26x24) ![0, 0] S26x24.size inb_S26x24_S26x24_0_0
/-- The whole 256 x 128 table. -/
abbrev rCoef : Rect S256x128 := Rect.unit (s := S256x128) ![0, 0] S256x128.size inb_S256x128_S256x128_0_0
/-- The whole 4096 x 64 output block. -/
abbrev rOut : Rect S4096x64 := Rect.unit (s := S4096x64) ![0, 0] S4096x64.size inb_S4096x64_S4096x64_0_0

/-! ## What the body leaves in the output window's buffer -/

/-- The output block after the body, from the six input blocks: one store of the whole block, its value the
    product of the three selected table entries with the selected coefficient row. -/
def outBlk (x0 x1 x2 x3 : Vec F S4096 .i32) (x4 : Vec F S26x24 .f32) (x5 : Vec F S256x128 .bf16) : Vec F S4096x64 .f32 :=
  View.canon [⟨rOut, k0_pay1 (k0_pay2 (View.ld x1 rIdx)) (k0_pay3 (View.ld x2 rIdx)) (k0_pay4 (View.ld x3 rIdx))
    (k0_pay5 (View.ld x0 rIdx) (View.ld x1 rIdx) (View.ld x2 rIdx) (View.ld x3 rIdx) (View.ld x4 rTab)) (View.ld x5 rCoef)⟩]

/-- The one store covers the block. -/
theorem coverOut (p0 : Vec F S4096x64 .f32) (y : S4096x64.Idx) :
    ∃ pc ∈ ([⟨rOut, p0⟩] : List (View.Piece (Elt F) S4096x64 .f32)), y ∈ pc.1.set :=
  View.cover_of_tiled [⟨rOut, p0⟩] S4096x64.size (by rfl) y

/-! ## The body's triple -/

set_option maxHeartbeats 4000000 in
/-- The body on whole staging memrefs, the inputs' at contents `xW` and the output's at anything, runs to the
    continuation with the inputs' as they were and the output's at `outBlk` of the inputs'. -/
theorem sound_kernel (c : Dev nD) (E : Set ℕ) (i : grid0.Coords)
    (arg1 : Memref sig .tc .vmem S4096 .i32) (harg1 : arg1.IsWhole) (arg2 : Memref sig .tc .vmem S4096 .i32) (harg2 : arg2.IsWhole)
    (arg3 : Memref sig .tc .vmem S4096 .i32) (harg3 : arg3.IsWhole) (arg4 : Memref sig .tc .vmem S4096 .i32) (harg4 : arg4.IsWhole)
    (arg5 : Memref sig .tc .vmem S26x24 .f32) (harg5 : arg5.IsWhole) (arg6 : Memref sig .tc .vmem S256x128 .bf16) (harg6 : arg6.IsWhole)
    (arg7 : Memref sig .tc .vmem S4096x64 .f32) (harg7 : arg7.IsWhole)
    (x0 x1 x2 x3 : Vec F S4096 .i32) (x4 : Vec F S26x24 .f32) (x5 : Vec F S256x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (coverOut _)

/-! ## The pipeline's proof data -/

/-- The proof data on core `c`: the arrays as the region finds them; after the body at point `t` each input's
    buffer at its block and the output's at `outBlk` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' memrefs hold their blocks, so the triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The per-point obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main terminates, faults nowhere, and leaves its nine argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Frm

end
-- ==== Proof.Spec.lean ====
import Idealize.ShloMosaic.Lib.ValueIdx
import Idealize.ShloMosaic.PureOps.Ideal

/-!
# What both programs compute

For each of 1,048,576 positions `n` there are four index words: a token word `tok n` and three grid coordinates
`k1 n`, `k2 n`, `k3 n`. Each coordinate is reduced modulo 8 to a basis index; the three basis indices also make one
flat index `64 j1 + 8 j2 + j3` into 512 coefficient columns. With `E` the 26 x 64 embedding table, `Bx`, `By`, `Bz`
the 8 x 64 basis tables and `A` the 64 x 512 coefficient matrix, the result at `(n, k)` is

  (Σ_m E[tok n, m] · Bx[j1, m]) · (Σ_m E[tok n, m] · By[j2, m]) · (Σ_m E[tok n, m] · Bz[j3, m]) · A[k, 64 j1 + 8 j2 + j3].

The words are read through their unsigned values: a word's residue modulo 8 does not depend on how its top bit is read,
because 8 divides 2^32, and a token word is only ever used below 26.
-/

noncomputable section

namespace Cert.Spec

open Idealize.ShloMosaic Idealize.ShloMosaic.ValueIdx

/-- A word's residue modulo 8: a basis index. -/
def low3 (w : BitVec 32) : Fin 8 := ⟨w.toNat % 8, Nat.mod_lt _ (by decide)⟩

/-- A token word as a row of the 26-row table (the word itself when it is below 26). -/
def tokRow (w : BitVec 32) : Fin 26 := ⟨w.toNat % 26, Nat.mod_lt _ (by decide)⟩

/-- The flat coefficient column of three coordinate words: `64 j1 + 8 j2 + j3`. -/
def flat (a b c : BitVec 32) : Fin 512 :=
  ⟨(low3 a).val * 64 + (low3 b).val * 8 + (low3 c).val, by
    have ha := (low3 a).isLt; have hb := (low3 b).isLt; have hc := (low3 c).isLt; omega⟩

/-- Row `v` of the embedding table against row `j` of a basis table. -/
def rowDot (B : FVec Ideal ⟨2, ![8, 64]⟩ .f32) (E : FVec Ideal ⟨2, ![26, 64]⟩ .f32) (j : Fin 8) (v : Fin 26) : EReal :=
  ∑ m : Fin 64, E (ix2 v m) * B (ix2 j m)

/-- The result at one position from its four words: the three row products' product times the coefficient. -/
def atPos (E : FVec Ideal ⟨2, ![26, 64]⟩ .f32) (A : FVec Ideal ⟨2, ![64, 512]⟩ .f32)
    (Bx By Bz : FVec Ideal ⟨2, ![8, 64]⟩ .f32) (t a b c : BitVec 32) (k : Fin 64) : EReal :=
  (rowDot Bx E (low3 a) (tokRow t) * rowDot By E (low3 b) (tokRow t) * rowDot Bz E (low3 c) (tokRow t))
    * A (ix2 k (flat a b c))

/-- The whole result array as one function of the nine argument arrays. -/
def G (E : FVec Ideal ⟨2, ![26, 64]⟩ .f32) (A : FVec Ideal ⟨2, ![64, 512]⟩ .f32)
    (Bx By Bz : FVec Ideal ⟨2, ![8, 64]⟩ .f32) (tok k1 k2 k3 : IVec ⟨1, ![1048576]⟩ 32) :
    FVec Ideal ⟨2, ![1048576, 64]⟩ .f32 :=
  fun i => atPos E A Bx By Bz (tok (ix1 (i 0))) (k1 (ix1 (i 0))) (k2 (ix1 (i 0))) (k3 (ix1 (i 0))) (i 1)

/-- The kernel's form of one position's result, over the two tables its host code prepares: `S` the 26 x 24 table of
    the three families of row products side by side, `Av` the 256 x 128 table whose row `h` holds coefficient columns
    `2h` and `2h + 1` side by side. -/
def kerAt (S : FVec Ideal ⟨2, ![26, 24]⟩ .f32) (Av : FVec Ideal ⟨2, ![256, 128]⟩ .bf16) (t a b c : BitVec 32) (k : Fin 64) : EReal :=
  (S (ix2 (tokRow t) ⟨(low3 a).val, by have := (low3 a).isLt; omega⟩)
      * S (ix2 (tokRow t) ⟨8 + (low3 b).val, by have := (low3 b).isLt; omega⟩)
      * S (ix2 (tokRow t) ⟨16 + (low3 c).val, by have := (low3 c).isLt; omega⟩))
    * Av (ix2 ⟨(flat a b c).val / 2, by have := (flat a b c).isLt; omega⟩
             ⟨(flat a b c).val % 2 * 64 + k.val, by have := k.isLt; have := Nat.mod_lt (flat a b c).val (by decide : 0 < 2); omega⟩)

end Cert.Spec

end
-- ==== Proof.KernelPay.lean ====
import proofs.«402731_j85882166050871_3_alg».proof.Proof.Gen.KernelIdeal.Skeleton
import proofs.«402731_j85882166050871_3_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

namespace Cert.KernelIdeal.Pay

open Cert.KernelIdeal Cert.KernelIdeal.Gen
open Idealize.ShloMosaic Idealize.ShloMosaic.ValueIdx

/-! ## Words -/

/-- A word's low three bits are its unsigned value modulo 8. -/
private theorem andi_seven (w : BitVec 32) : IntOp.andi w 7#32 = BitVec.ofNat 32 (w.toNat % 8) := by
  unfold IntOp.andi
  apply BitVec.eq_of_toNat_eq
  have h : (7#32 : BitVec 32).toNat = 2 ^ 3 - 1 := by decide
  rw [BitVec.toNat_and, h, Nat.and_two_pow_sub_one_eq_mod, BitVec.toNat_ofNat]
  have := w.isLt
  omega

/-- The low bit of a small number's word is the number modulo 2. -/
private theorem andi_one (j : Nat) (hj : j < 512) : IntOp.andi (BitVec.ofNat 32 j) 1#32 = BitVec.ofNat 32 (j % 2) := by
  unfold IntOp.andi
  apply BitVec.eq_of_toNat_eq
  have h : (1#32 : BitVec 32).toNat = 2 ^ 1 - 1 := by decide
  rw [BitVec.toNat_and, h, Nat.and_two_pow_sub_one_eq_mod, BitVec.toNat_ofNat, BitVec.toNat_ofNat]
  omega

/-- The flat index of three words is the word of the flat index: the word of a number is additive and multiplicative. -/
private theorem flat_word (a b c : Nat) :
    IntOp.addi (IntOp.addi (IntOp.muli (BitVec.ofNat 32 a) 64#32) (IntOp.muli (BitVec.ofNat 32 b) 8#32)) (BitVec.ofNat 32 c)
      = BitVec.ofNat 32 (a * 64 + b * 8 + c) := by
  unfold IntOp.addi IntOp.muli
  rw [BitVec.ofNat_add, BitVec.ofNat_add, BitVec.ofNat_mul, BitVec.ofNat_mul]

/-- The arithmetic shift by one of a small number's word (its sign bit is clear) is the word of its half. -/
private theorem shrsi_one (j : Nat) (hj : j < 512) : IntOp.shrsi .vector (BitVec.ofNat 32 j) 1#32 = BitVec.ofNat 32 (j / 2) := by
  unfold IntOp.shrsi
  rw [if_pos (by decide)]
  have hm : (BitVec.ofNat 32 j).msb = false := by
    rw [BitVec.msb_eq_false_iff_two_mul_lt, BitVec.toNat_ofNat]; omega
  have h1 : (1#32 : BitVec 32).toNat = 1 := by decide
  show (BitVec.ofNat 32 j).sshiftRight (1#32 : BitVec 32).toNat = _
  rw [h1, BitVec.sshiftRight_eq_of_msb_false hm]
  apply BitVec.eq_of_toNat_eq
  rw [BitVec.toNat_ushiftRight, BitVec.toNat_ofNat, BitVec.toNat_ofNat, Nat.shiftRight_eq_div_pow]
  omega

/-! ## A column of words against a lane iota -/

/-- The column form [4096, 1] of a vector reads the vector at the row. -/
private theorem col_apply {α : Type} (v : S4096.Idx → α) (h : S4096.ShapeCasts S4096x1) (r : Fin 4096) (z : Fin 1) :
    shapeCast S4096x1 v h (ix2 r z) = v (ix1 r) := by
  refine shapeCast_apply v h (ix2 r z) (ix1 r) ?_
  rw [Shape.rowMajor_val_one, Shape.rowMajor_val_two]
  show r.val = r.val * 1 + z.val
  have := z.isLt
  omega

/-- A column broadcast along the rows reads the column at the row. -/
private theorem bcast_row_apply {α : Type} {n : Nat} (x : S4096x1.Idx → α) (h : S4096x1.Broadcasts ⟨2, ![4096, n]⟩)
    (r : Fin 4096) (q : Fin n) :
    broadcastTo ⟨2, ![4096, n]⟩ x h (ix2 r q) = x (ix2 r (0 : Fin 1)) := by
  refine broadcastTo_apply x h (ix2 r q) (ix2 r (0 : Fin 1)) fun a => ?_
  match a with
  | ⟨0, _⟩ => rfl
  | ⟨1, _⟩ => rfl

/-- The widened comparison bit of two words, read signed as a real, is 1 when they are equal and 0 otherwise. -/
private theorem bit_real (x y : BitVec 32) :
    ((((IntOp.cmpi .eq x y).setWidth 32).toInt : ℝ) : EReal) = if x = y then 1 else 0 := by
  show ((((BitVec.ofBool (x == y)).setWidth 32).toInt : ℝ) : EReal) = _
  by_cases h : x = y
  · subst h
    rw [if_pos rfl, beq_self_eq_true]
    have h1 : ((BitVec.ofBool true).setWidth 32).toInt = 1 := by decide
    rw [h1]; simp
  · rw [if_neg h]
    have hb : (x == y) = false := by simpa using h
    rw [hb]
    have h0 : ((BitVec.ofBool false).setWidth 32).toInt = 0 := by decide
    rw [h0]; simp

/-- The one-hot of a vector of words against the lane numbers, as floats: at (r, q) it is 1 when row r's word is q's
    word and 0 otherwise. -/
private theorem onehot_apply {n : Nat} (v : IVec S4096 32) (hc : S4096.ShapeCasts S4096x1)
    (hb : S4096x1.Broadcasts ⟨2, ![4096, n]⟩) (hi : (⟨2, ![4096, n]⟩ : Shape).Iotas .tc 32 [1]) (hlt : 1 < 32)
    (r : Fin 4096) (q : Fin n) :
    (sitofp (F := Ideal) .f32 (extui 32 (cmpi .eq (broadcastTo ⟨2, ![4096, n]⟩ (shapeCast S4096x1 v hc) hb)
        (iota .tc ⟨2, ![4096, n]⟩ 32 [1] hi)) hlt) : FVec Ideal ⟨2, ![4096, n]⟩ .f32) (ix2 r q)
      = if v (ix1 r) = BitVec.ofNat 32 q.val then 1 else 0 := by
  show ((((IntOp.cmpi .eq (broadcastTo ⟨2, ![4096, n]⟩ (shapeCast S4096x1 v hc) hb (ix2 r q))
      (iota .tc ⟨2, ![4096, n]⟩ 32 [1] hi (ix2 r q))).setWidth 32).toInt : ℝ) : EReal) = _
  rw [bcast_row_apply, col_apply, iota_single_apply]
  exact bit_real _ _

/-! ## The two products -/

private theorem lhs_tok_0 (i : S4096x24.Idx) (q : dot_S4096x26_S26x24_S4096x24_1_0_0_1_n_n.contr.Idx) :
    (dot_S4096x26_S26x24_S4096x24_1_0_0_1_n_n.lhsIdx i q 0).val = (i 0).val := by
  unfold DotDims.lhsIdx
  rw [dif_neg (show ¬(0 : Fin S4096x26.rank) ∈ dot_S4096x26_S26x24_S4096x24_1_0_0_1_n_n.lhsBatch by decide), dif_pos (show (0 : Fin S4096x26.rank) ∈ dot_S4096x26_S26x24_S4096x24_1_0_0_1_n_n.lhsNonContracting by decide)]
  rfl
private theorem lhs_tok_1 (i : S4096x24.Idx) (q : dot_S4096x26_S26x24_S4096x24_1_0_0_1_n_n.contr.Idx) :
    (dot_S4096x26_S26x24_S4096x24_1_0_0_1_n_n.lhsIdx i q 1).val = (q ⟨0, by decide⟩).val :=
  dot_S4096x26_S26x24_S4096x24_1_0_0_1_n_n.lhsIdx_val_of_single rfl i q
private theorem rhs_tok_0 (i : S4096x24.Idx) (q : dot_S4096x26_S26x24_S4096x24_1_0_0_1_n_n.contr.Idx) :
    (dot_S4096x26_S26x24_S4096x24_1_0_0_1_n_n.rhsIdx i q 0).val = (q ⟨0, by decide⟩).val :=
  dot_S4096x26_S26x24_S4096x24_1_0_0_1_n_n.rhsIdx_val_of_single rfl i q
private theorem rhs_tok_1 (i : S4096x24.Idx) (q : dot_S4096x26_S26x24_S4096x24_1_0_0_1_n_n.contr.Idx) :
    (dot_S4096x26_S26x24_S4096x24_1_0_0_1_n_n.rhsIdx i q 1).val = (i 1).val := by
  unfold DotDims.rhsIdx
  rw [dif_neg (show ¬(1 : Fin S26x24.rank) ∈ dot_S4096x26_S26x24_S4096x24_1_0_0_1_n_n.rhsBatch by decide), dif_pos (show (1 : Fin S26x24.rank) ∈ dot_S4096x26_S26x24_S4096x24_1_0_0_1_n_n.rhsNonContracting by decide)]
  rfl

/-- The product into the zero accumulator, read at (r, c): the sum over the contracted coordinate of the entries' products. -/
private theorem matmul_tok_apply (L : FVec Ideal S4096x26 .f32) (T : FVec Ideal S26x24 .f32) (r : Fin 4096) (c : Fin 24) :
    matmul dot_S4096x26_S26x24_S4096x24_1_0_0_1_n_n (some .fp32) L T (constant (F := Ideal) S4096x24 .f32 0x00000000#32) (ix2 r c)
      = ∑ q : Fin 26, L (ix2 r q) * T (ix2 q c) := by
  refine (Ideal.matmul_constant_zero_apply dot_S4096x26_S26x24_S4096x24_1_0_0_1_n_n (some .fp32) L T (ix2 r c)).trans ?_
  rw [← Equiv.sum_comp (contrEquiv1 dot_S4096x26_S26x24_S4096x24_1_0_0_1_n_n 26 rfl rfl).symm]
  refine Finset.sum_congr rfl fun k _ => ?_
  have hk := contrEquiv1_symm_val dot_S4096x26_S26x24_S4096x24_1_0_0_1_n_n 26 rfl rfl k
  have el : dot_S4096x26_S26x24_S4096x24_1_0_0_1_n_n.lhsIdx (ix2 r c) ((contrEquiv1 dot_S4096x26_S26x24_S4096x24_1_0_0_1_n_n 26 rfl rfl).symm k) = ix2 r k := funext fun a => Fin.ext (by
    match a with
    | ⟨0, _⟩ => exact lhs_tok_0 _ _
    | ⟨1, _⟩ => exact (lhs_tok_1 _ _).trans hk)
  have er : dot_S4096x26_S26x24_S4096x24_1_0_0_1_n_n.rhsIdx (ix2 r c) ((contrEquiv1 dot_S4096x26_S26x24_S4096x24_1_0_0_1_n_n 26 rfl rfl).symm k) = ix2 k c := funext fun a => Fin.ext (by
    match a with
    | ⟨0, _⟩ => exact (rhs_tok_0 _ _).trans hk
    | ⟨1, _⟩ => exact rhs_tok_1 _ _)
  rw [el, er]

private theorem lhs_coef_0 (i : S4096x128.Idx) (q : dot_S4096x256_S256x128_S4096x128_1_0_0_1_n_n.contr.Idx) :
    (dot_S4096x256_S256x128_S4096x128_1_0_0_1_n_n.lhsIdx i q 0).val = (i 0).val := by
  unfold DotDims.lhsIdx
  rw [dif_neg (show ¬(0 : Fin S4096x256.rank) ∈ dot_S4096x256_S256x128_S4096x128_1_0_0_1_n_n.lhsBatch by decide), dif_pos (show (0 : Fin S4096x256.rank) ∈ dot_S4096x256_S256x128_S4096x128_1_0_0_1_n_n.lhsNonContracting by decide)]
  rfl
private theorem lhs_coef_1 (i : S4096x128.Idx) (q : dot_S4096x256_S256x128_S4096x128_1_0_0_1_n_n.contr.Idx) :
    (dot_S4096x256_S256x128_S4096x128_1_0_0_1_n_n.lhsIdx i q 1).val = (q ⟨0, by decide⟩).val :=
  dot_S4096x256_S256x128_S4096x128_1_0_0_1_n_n.lhsIdx_val_of_single rfl i q
private theorem rhs_coef_0 (i : S4096x128.Idx) (q : dot_S4096x256_S256x128_S4096x128_1_0_0_1_n_n.contr.Idx) :
    (dot_S4096x256_S256x128_S4096x128_1_0_0_1_n_n.rhsIdx i q 0).val = (q ⟨0, by decide⟩).val :=
  dot_S4096x256_S256x128_S4096x128_1_0_0_1_n_n.rhsIdx_val_of_single rfl i q
private theorem rhs_coef_1 (i : S4096x128.Idx) (q : dot_S4096x256_S256x128_S4096x128_1_0_0_1_n_n.contr.Idx) :
    (dot_S4096x256_S256x128_S4096x128_1_0_0_1_n_n.rhsIdx i q 1).val = (i 1).val := by
  unfold DotDims.rhsIdx
  rw [dif_neg (show ¬(1 : Fin S256x128.rank) ∈ dot_S4096x256_S256x128_S4096x128_1_0_0_1_n_n.rhsBatch by decide), dif_pos (show (1 : Fin S256x128.rank) ∈ dot_S4096x256_S256x128_S4096x128_1_0_0_1_n_n.rhsNonContracting by decide)]
  rfl

/-- The product into the zero accumulator, read at (r, c): the sum over the contracted coordinate of the entries' products. -/
private theorem matmul_coef_apply (L : FVec Ideal S4096x256 .bf16) (T : FVec Ideal S256x128 .bf16) (r : Fin 4096) (c : Fin 128) :
    matmul dot_S4096x256_S256x128_S4096x128_1_0_0_1_n_n none L T (constant (F := Ideal) S4096x128 .f32 0x00000000#32) (ix2 r c)
      = ∑ q : Fin 256, L (ix2 r q) * T (ix2 q c) := by
  refine (Ideal.matmul_constant_zero_apply dot_S4096x256_S256x128_S4096x128_1_0_0_1_n_n none L T (ix2 r c)).trans ?_
  rw [← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  have el : dot_S4096x256_S256x128_S4096x128_1_0_0_1_n_n.lhsIdx (ix2 r c) ((contrEquiv1 dot_S4096x256_S256x128_S4096x128_1_0_0_1_n_n 256 rfl rfl).symm k) = ix2 r k := funext fun a => Fin.ext (by
    match a with
    | ⟨0, _⟩ => exact lhs_coef_0 _ _
    | ⟨1, _⟩ => exact (lhs_coef_1 _ _).trans hk)
  have er : dot_S4096x256_S256x128_S4096x128_1_0_0_1_n_n.rhsIdx (ix2 r c) ((contrEquiv1 dot_S4096x256_S256x128_S4096x128_1_0_0_1_n_n 256 rfl rfl).symm k) = ix2 k c := funext fun a => Fin.ext (by
    match a with
    | ⟨0, _⟩ => exact (rhs_coef_0 _ _).trans hk
    | ⟨1, _⟩ => exact rhs_coef_1 _ _)
  rw [el, er]

/-! ## A one-hot sum selects -/

/-- Distinct lane numbers have distinct words, so against the one-hot of the word of lane `q0` a sum keeps the one
    term at `q0`. -/
private theorem sum_onehot {n : Nat} (hn : n ≤ 2 ^ 32) (w : BitVec 32) (q0 : Fin n) (hw : w = BitVec.ofNat 32 q0.val)
    (f : Fin n → EReal) :
    ∑ q : Fin n, (if w = BitVec.ofNat 32 q.val then (1 : EReal) else 0) * f q = f q0 := by
  rw [Finset.sum_eq_single q0]
  · rw [if_pos hw, one_mul]
  · intro q _ hq
    have hne : ¬ w = BitVec.ofNat 32 q.val := by
      intro h
      apply hq
      apply Fin.ext
      have h2 : BitVec.ofNat 32 q0.val = BitVec.ofNat 32 q.val := hw.symm.trans h
      have h3 := congrArg BitVec.toNat h2
      rw [BitVec.toNat_ofNat, BitVec.toNat_ofNat] at h3
      have h4 := q.isLt
      have h5 := q0.isLt
      rw [Nat.mod_eq_of_lt (by omega), Nat.mod_eq_of_lt (by omega)] at h3
      exact h3.symm
    rw [if_neg hne, zero_mul]
  · intro h; exact absurd (Finset.mem_univ _) h

/-! ## Slices -/

/-- An 8-lane slice of the 24-lane product at lane offset `o`. -/
private theorem slice8_apply {α : Type} (x : S4096x24.Idx → α) (o : Nat) (ho : o + 8 ≤ 24) (h : S4096x24.Slices ![0, o] S4096x8)
    (r : Fin 4096) (q : Fin 8) :
    extractStridedSlice S4096x8 ![0, o] x h (ix2 r q) = x (ix2 r (⟨o + q.val, by have := q.isLt; omega⟩ : Fin 24)) := by
  refine extractStridedSlice_apply ![0, o] x h (ix2 r q) _ fun a => ?_
  match a with
  | ⟨0, _⟩ => exact (Nat.zero_add _).symm
  | ⟨1, _⟩ => rfl

/-- A 64-lane slice of the 128-lane product at lane offset `o`. -/
private theorem slice64_apply {α : Type} (x : S4096x128.Idx → α) (o : Nat) (ho : o + 64 ≤ 128) (h : S4096x128.Slices ![0, o] S4096x64)
    (r : Fin 4096) (k : Fin 64) :
    extractStridedSlice S4096x64 ![0, o] x h (ix2 r k) = x (ix2 r (⟨o + k.val, by have := k.isLt; omega⟩ : Fin 128)) := by
  refine extractStridedSlice_apply ![0, o] x h (ix2 r k) _ fun a => ?_
  match a with
  | ⟨0, _⟩ => exact (Nat.zero_add _).symm
  | ⟨1, _⟩ => rfl

/-! ## The lane sum -/

/-- The sum over the 8 lanes, read at a row. -/
private theorem lanesum_apply (v : FVec Ideal S4096x8 .f32) (h : S4096x8.Reduces [1] S4096) (hφ : FKind.Formats .f32)
    (hacc : (0x00000000#32 : BitVec FTy.f32.bits) = FKind.add.neutral .f32 hφ) (r : Fin 4096) :
    multiReduction (F := Ideal) .add [1] S4096 v 0x00000000#32 h hφ hacc (ix1 r) = ∑ q : Fin 8, v (ix2 r q) := by
  refine (Ideal.multiReduction_add_single v 0x00000000#32 h hφ hacc (ix1 r)).trans ?_
  refine Finset.sum_congr rfl fun q _ => congrArg v ?_
  funext a
  apply Fin.ext
  match a with
  | ⟨0, _⟩ => rfl
  | ⟨1, _⟩ => rfl

/-! ## The blend -/

/-- With the parity `p` of the flat index as a float, `T0 (1 - p) + T1 p` is `T0` at parity 0 and `T1` at parity 1. -/
private theorem blend_real (T0 T1 : EReal) (p : Nat) (hp : p < 2) :
    T0 * ((1 : EReal) - (((BitVec.ofNat 32 p).toInt : ℝ) : EReal)) + T1 * (((BitVec.ofNat 32 p).toInt : ℝ) : EReal)
      = if p = 0 then T0 else T1 := by
  have h11 : (1 : EReal) - 1 = 0 := by
    rw [← EReal.coe_one, ← EReal.coe_sub]; norm_num
  have h10 : (1 : EReal) - 0 = 1 := sub_zero _
  interval_cases p
  · have h0 : (BitVec.ofNat 32 0).toInt = 0 := by decide
    rw [h0, if_pos rfl]
    simp
  · have h1 : (BitVec.ofNat 32 1).toInt = 1 := by decide
    rw [h1, if_neg (by decide)]
    simp [h11]

/-! ## The stages in the payloads' own form -/

/-- The token product at (r, c): row `t` of the table, when row r's token word is the word of `t < 26`. -/
private theorem tok_row (x0 : IVec S4096 32) (x4 : FVec Ideal S26x24 .f32) (hc : S4096.ShapeCasts S4096x1)
    (hb : S4096x1.Broadcasts S4096x26) (hi : S4096x26.Iotas .tc 32 [1]) (hlt : 1 < 32) (hsc : S26x24.ShapeCasts S26x24)
    (r : Fin 4096) (c : Fin 24) (t : Fin 26) (ht : x0 (ix1 r) = BitVec.ofNat 32 t.val) :
    matmul dot_S4096x26_S26x24_S4096x24_1_0_0_1_n_n (some .fp32)
        (sitofp (F := Ideal) .f32 (extui 32 (cmpi .eq (broadcastTo S4096x26 (shapeCast S4096x1 x0 hc) hb)
          (iota .tc S4096x26 32 [1] hi)) hlt))
        (shapeCast S26x24 x4 hsc) (constant (F := Ideal) S4096x24 .f32 0x00000000#32) (ix2 r c)
      = x4 (ix2 t c) := by
  refine (matmul_tok_apply _ _ r c).trans ?_
  refine (Finset.sum_congr rfl fun q _ =>
    congrArg₂ (· * ·) (onehot_apply x0 hc hb hi hlt r q) (congrFun (shapeCast_self x4 hsc) (ix2 q c))).trans ?_
  exact sum_onehot (by norm_num) _ t ht fun q => x4 (ix2 q c)

/-- The coefficient product at (r, c): row `h` of the table, when row r's half flat index is the word of `h < 256`. -/
private theorem coef_row (w : IVec S4096 32) (x5 : FVec Ideal S256x128 .bf16) (hc : S4096.ShapeCasts S4096x1)
    (hb : S4096x1.Broadcasts S4096x256) (hi : S4096x256.Iotas .tc 32 [1]) (hlt : 1 < 32)
    (hbits : FTy.bits .bf16 < FTy.bits .f32) (hsc : S256x128.ShapeCasts S256x128)
    (r : Fin 4096) (c : Fin 128) (h : Fin 256) (hh : w (ix1 r) = BitVec.ofNat 32 h.val) :
    matmul dot_S4096x256_S256x128_S4096x128_1_0_0_1_n_n none
        (truncf .bf16 (sitofp (F := Ideal) .f32 (extui 32 (cmpi .eq (broadcastTo S4096x256 (shapeCast S4096x1 w hc) hb)
          (iota .tc S4096x256 32 [1] hi)) hlt)) hbits)
        (shapeCast S256x128 x5 hsc) (constant (F := Ideal) S4096x128 .f32 0x00000000#32) (ix2 r c)
      = x5 (ix2 h c) := by
  refine (matmul_coef_apply _ _ r c).trans ?_
  refine (Finset.sum_congr rfl fun q _ =>
    congrArg₂ (· * ·) (onehot_apply w hc hb hi hlt r q) (congrFun (shapeCast_self x5 hsc) (ix2 q c))).trans ?_
  exact sum_onehot (by norm_num) _ h hh fun q => x5 (ix2 q c)

/-- A slice of the token product times the one-hot of a low-three-bits word, lane-summed: the product at the selected
    lane. -/
private theorem lane_pick (T : FVec Ideal S4096x24 .f32) (w : IVec S4096 32) (o : Nat) (ho : o + 8 ≤ 24)
    (hs : S4096x24.Slices ![0, o] S4096x8) (hc : S4096.ShapeCasts S4096x1) (hb : S4096x1.Broadcasts S4096x8)
    (hi : S4096x8.Iotas .tc 32 [1]) (hlt : 1 < 32) (hr : S4096x8.Reduces [1] S4096) (hφ : FKind.Formats .f32)
    (hacc : (0x00000000#32 : BitVec FTy.f32.bits) = FKind.add.neutral .f32 hφ)
    (r : Fin 4096) (m : Fin 8) (hw : w (ix1 r) = BitVec.ofNat 32 m.val) :
    multiReduction (F := Ideal) .add [1] S4096
        (mulf (extractStridedSlice S4096x8 ![0, o] T hs)
          (sitofp (F := Ideal) .f32 (extui 32 (cmpi .eq (broadcastTo S4096x8 (shapeCast S4096x1 w hc) hb)
            (iota .tc S4096x8 32 [1] hi)) hlt)))
        0x00000000#32 hr hφ hacc (ix1 r)
      = T (ix2 r (⟨o + m.val, by have := m.isLt; omega⟩ : Fin 24)) := by
  refine (lanesum_apply _ hr hφ hacc r).trans ?_
  refine (Finset.sum_congr rfl fun q _ =>
    ((mulf_apply _ _ (ix2 r q)).trans (congrArg₂ (· * ·) (slice8_apply T o ho hs r q) (onehot_apply w hc hb hi hlt r q))).trans
      (mul_comm _ _)).trans ?_
  exact sum_onehot (by norm_num) _ m hw fun q => T (ix2 r (⟨o + q.val, by have := q.isLt; omega⟩ : Fin 24))

/-- The blend and the final product, read at (r, k), over the product `V`, the parity vector and the scalar vector. -/
private theorem blend_apply (s par : FVec Ideal S4096 .f32) (V : FVec Ideal S4096x128 .f32) (hc : S4096.ShapeCasts S4096x1)
    (hb : S4096x1.Broadcasts S4096x64) (hs0 : S4096x128.Slices ![0, 0] S4096x64) (hs64 : S4096x128.Slices ![0, 64] S4096x64)
    (r : Fin 4096) (k : Fin 64) :
    mulf (broadcastTo S4096x64 (shapeCast S4096x1 s hc) hb)
        (addf
          (mulf (extractStridedSlice S4096x64 ![0, 0] V hs0)
            (broadcastTo S4096x64 (subf (broadcast S4096x1 (Scalar.ofBits (F := Ideal) .f32 0x3F800000#32)) (shapeCast S4096x1 par hc)) hb))
          (mulf (extractStridedSlice S4096x64 ![0, 64] V hs64) (broadcastTo S4096x64 (shapeCast S4096x1 par hc) hb)))
        (ix2 r k)
      = s (ix1 r) * (V (ix2 r (⟨0 + k.val, by have := k.isLt; omega⟩ : Fin 128)) * ((1 : EReal) - par (ix1 r))
          + V (ix2 r (⟨64 + k.val, by have := k.isLt; omega⟩ : Fin 128)) * par (ix1 r)) := by
  have e1 : broadcastTo S4096x64 (shapeCast S4096x1 s hc) hb (ix2 r k) = s (ix1 r) :=
    (bcast_row_apply _ hb r k).trans (col_apply s hc r 0)
  have e2 : broadcastTo S4096x64 (shapeCast S4096x1 par hc) hb (ix2 r k) = par (ix1 r) :=
    (bcast_row_apply _ hb r k).trans (col_apply par hc r 0)
  have e3 : broadcastTo S4096x64 (subf (broadcast S4096x1 (Scalar.ofBits (F := Ideal) .f32 0x3F800000#32)) (shapeCast S4096x1 par hc)) hb (ix2 r k)
      = (1 : EReal) - par (ix1 r) := by
    refine (bcast_row_apply _ hb r k).trans ?_
    refine (subf_apply _ _ _).trans ?_
    exact congrArg₂ (· - ·) Ideal.ofBits_one_f32 (col_apply par hc r 0)
  refine (mulf_apply _ _ _).trans (congrArg₂ (· * ·) e1 ?_)
  refine (addf_apply _ _ _).trans (congrArg₂ (· + ·) ?_ ?_)
  · exact (mulf_apply _ _ _).trans (congrArg₂ (· * ·) (slice64_apply V 0 (by norm_num) hs0 r k) e3)
  · exact (mulf_apply _ _ _).trans (congrArg₂ (· * ·) (slice64_apply V 64 (by norm_num) hs64 r k) e2)

/-! ## The words at a row -/

/-- The flat index word at a row, from the three low-three-bits words there. -/
private theorem flat_at (v5 v7 v9 : IVec S4096 32) (r : Fin 4096) (a b c : Nat) (h5 : v5 (ix1 r) = BitVec.ofNat 32 a)
    (h7 : v7 (ix1 r) = BitVec.ofNat 32 b) (h9 : v9 (ix1 r) = BitVec.ofNat 32 c) :
    addi (addi (muli v5 (broadcast S4096 64#32)) (muli v7 (broadcast S4096 8#32))) v9 (ix1 r)
      = BitVec.ofNat 32 (a * 64 + b * 8 + c) := by
  show IntOp.addi (IntOp.addi (IntOp.muli (v5 (ix1 r)) 64#32) (IntOp.muli (v7 (ix1 r)) 8#32)) (v9 (ix1 r)) = _
  rw [h5, h7, h9]
  exact flat_word a b c

/-- Its half, at a row. -/
private theorem half_at (v : IVec S4096 32) (r : Fin 4096) (j : Nat) (hj : j < 512) (hv : v (ix1 r) = BitVec.ofNat 32 j) :
    shrsi v (broadcast S4096 1#32) (ix1 r) = BitVec.ofNat 32 (j / 2) := by
  show IntOp.shrsi .vector (v (ix1 r)) 1#32 = _
  rw [hv]
  exact shrsi_one j hj

/-- Its parity as a float, at a row. -/
private theorem par_at (v : IVec S4096 32) (r : Fin 4096) (j : Nat) (hj : j < 512) (hv : v (ix1 r) = BitVec.ofNat 32 j) :
    (sitofp (F := Ideal) .f32 (andi v (broadcast S4096 1#32)) : FVec Ideal S4096 .f32) (ix1 r)
      = (((BitVec.ofNat 32 (j % 2)).toInt : ℝ) : EReal) := by
  show (((IntOp.andi (v (ix1 r)) 1#32).toInt : ℝ) : EReal) = _
  rw [hv, andi_one j hj]

/-! ## The payloads at a row -/

/-- A coordinate block's low three bits at a row: the word of the coordinate's basis index. -/
private theorem pay2_at (x1 : Vec Ideal S4096 .i32) (r : Fin 4096) :
    k0_pay2 (F := Ideal) x1 (ix1 r) = BitVec.ofNat 32 (Cert.Spec.low3 ((x1 : IVec S4096 32) (ix1 r))).val :=
  andi_seven _
private theorem pay3_at (x2 : Vec Ideal S4096 .i32) (r : Fin 4096) :
    k0_pay3 (F := Ideal) x2 (ix1 r) = BitVec.ofNat 32 (Cert.Spec.low3 ((x2 : IVec S4096 32) (ix1 r))).val :=
  andi_seven _
private theorem pay4_at (x3 : Vec Ideal S4096 .i32) (r : Fin 4096) :
    k0_pay4 (F := Ideal) x3 (ix1 r) = BitVec.ofNat 32 (Cert.Spec.low3 ((x3 : IVec S4096 32) (ix1 r))).val :=
  andi_seven _

/-- A token word below 26 is the word of its table row. -/
private theorem tok_word (w : BitVec 32) (h : w.toNat < 26) : w = BitVec.ofNat 32 (Cert.Spec.tokRow w).val := by
  apply BitVec.eq_of_toNat_eq
  rw [BitVec.toNat_ofNat]
  show w.toNat = w.toNat % 26 % 2 ^ 32
  omega

/-- The scalar at row r: the three selected entries of the token's table row, multiplied. -/
private theorem pay5_apply (x0 x1 x2 x3 : Vec Ideal S4096 .i32) (x4 : Vec Ideal S26x24 .f32) (r : Fin 4096)
    (htok : ((x0 : IVec S4096 32) (ix1 r)).toNat < 26) :
    (k0_pay5 (F := Ideal) x0 x1 x2 x3 x4 : FVec Ideal S4096 .f32) (ix1 r)
      = (x4 : FVec Ideal S26x24 .f32) (ix2 (Cert.Spec.tokRow ((x0 : IVec S4096 32) (ix1 r)))
            (⟨(Cert.Spec.low3 ((x1 : IVec S4096 32) (ix1 r))).val, by have := (Cert.Spec.low3 ((x1 : IVec S4096 32) (ix1 r))).isLt; omega⟩ : Fin 24))
        * (x4 : FVec Ideal S26x24 .f32) (ix2 (Cert.Spec.tokRow ((x0 : IVec S4096 32) (ix1 r)))
            (⟨8 + (Cert.Spec.low3 ((x2 : IVec S4096 32) (ix1 r))).val, by have := (Cert.Spec.low3 ((x2 : IVec S4096 32) (ix1 r))).isLt; omega⟩ : Fin 24))
        * (x4 : FVec Ideal S26x24 .f32) (ix2 (Cert.Spec.tokRow ((x0 : IVec S4096 32) (ix1 r)))
            (⟨16 + (Cert.Spec.low3 ((x3 : IVec S4096 32) (ix1 r))).val, by have := (Cert.Spec.low3 ((x3 : IVec S4096 32) (ix1 r))).isLt; omega⟩ : Fin 24)) := by
  have ht := tok_word _ htok
  unfold k0_pay5
  dsimp only
  refine (mulf_apply _ _ _).trans (congrArg₂ (· * ·) ((mulf_apply _ _ _).trans (congrArg₂ (· * ·) ?_ ?_)) ?_)
  · refine ((lane_pick _ _ 0 (by norm_num) _ _ _ _ _ _ _ _ r _ (pay2_at x1 r)).trans (tok_row x0 x4 _ _ _ _ _ r _ _ ht)).trans ?_
    exact congrArg (fun c => (x4 : FVec Ideal S26x24 .f32) (ix2 (Cert.Spec.tokRow ((x0 : IVec S4096 32) (ix1 r))) c))
      (Fin.ext (Nat.zero_add _))
  · exact (lane_pick _ _ 8 (by norm_num) _ _ _ _ _ _ _ _ r _ (pay3_at x2 r)).trans (tok_row x0 x4 _ _ _ _ _ r _ _ ht)
  · exact (lane_pick _ _ 16 (by norm_num) _ _ _ _ _ _ _ _ r _ (pay4_at x3 r)).trans (tok_row x0 x4 _ _ _ _ _ r _ _ ht)

/-- The two halves of a coefficient row, chosen by the parity, are one entry of the row. -/
private theorem coef_pick (x5 : FVec Ideal S256x128 .bf16) (h : Fin 256) (j : Nat) (k : Fin 64) :
    (if j % 2 = 0 then x5 (ix2 h (⟨0 + k.val, by have := k.isLt; omega⟩ : Fin 128))
        else x5 (ix2 h (⟨64 + k.val, by have := k.isLt; omega⟩ : Fin 128)))
      = x5 (ix2 h (⟨j % 2 * 64 + k.val, by have := k.isLt; have := Nat.mod_lt j (by decide : 0 < 2); omega⟩ : Fin 128)) := by
  rcases Nat.mod_two_eq_zero_or_one j with h0 | h1
  · rw [if_pos h0]
    exact congrArg (fun c => x5 (ix2 h c)) (Fin.ext (by show 0 + k.val = j % 2 * 64 + k.val; omega))
  · rw [if_neg (by omega)]
    exact congrArg (fun c => x5 (ix2 h c)) (Fin.ext (by show 64 + k.val = j % 2 * 64 + k.val; omega))

/-- The body's stored value at row `r`, column `k` of the block, from the six loaded blocks, when row `r`'s token word
    is below 26: the three selected table entries' product times the selected coefficient entry. -/
theorem pay_apply (x0 x1 x2 x3 : Vec Ideal S4096 .i32) (x4 : Vec Ideal S26x24 .f32) (x5 : Vec Ideal S256x128 .bf16)
    (r : Fin 4096) (k : Fin 64) (htok : ((x0 : IVec S4096 32) (ix1 r)).toNat < 26) :
    (k0_pay1 (F := Ideal) (k0_pay2 (F := Ideal) x1) (k0_pay3 (F := Ideal) x2) (k0_pay4 (F := Ideal) x3) (k0_pay5 (F := Ideal) x0 x1 x2 x3 x4) x5 : FVec Ideal S4096x64 .f32) (ix2 r k)
      = Cert.Spec.kerAt x4 x5 ((x0 : IVec S4096 32) (ix1 r)) ((x1 : IVec S4096 32) (ix1 r)) ((x2 : IVec S4096 32) (ix1 r)) ((x3 : IVec S4096 32) (ix1 r)) k := by
  have hj : (Cert.Spec.flat ((x1 : IVec S4096 32) (ix1 r)) ((x2 : IVec S4096 32) (ix1 r)) ((x3 : IVec S4096 32) (ix1 r))).val < 512 :=
    (Cert.Spec.flat _ _ _).isLt
  have hh : (Cert.Spec.flat ((x1 : IVec S4096 32) (ix1 r)) ((x2 : IVec S4096 32) (ix1 r)) ((x3 : IVec S4096 32) (ix1 r))).val / 2 < 256 := by
    omega
  have hflat := flat_at (k0_pay2 (F := Ideal) x1) (k0_pay3 (F := Ideal) x2) (k0_pay4 (F := Ideal) x3) r _ _ _
    (pay2_at x1 r) (pay3_at x2 r) (pay4_at x3 r)
  have hH := half_at _ r _ hj hflat
  have hP := par_at _ r _ hj hflat
  unfold k0_pay1
  dsimp only
  refine (blend_apply _ _ _ _ _ _ _ r k).trans ?_
  refine (congrArg₂ (· * ·) (pay5_apply x0 x1 x2 x3 x4 r htok)
    ((congrArg₂ (· + ·)
        (congrArg₂ (· * ·) (coef_row _ x5 _ _ _ _ _ _ r _ ⟨_, hh⟩ hH) (congrArg (fun p => (1 : EReal) - p) hP))
        (congrArg₂ (· * ·) (coef_row _ x5 _ _ _ _ _ _ r _ ⟨_, hh⟩ hH) hP)).trans
      ((blend_real _ _ _ (Nat.mod_lt _ (by decide))).trans (coef_pick x5 ⟨_, hh⟩ _ k)))).trans ?_
  rfl

end Cert.KernelIdeal.Pay

end
-- ==== Proof.KernelTables.lean ====
import proofs.«402731_j85882166050871_3_alg».proof.Proof.KernelIdealFrame
import proofs.«402731_j85882166050871_3_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Tables

open Cert.KernelIdeal Cert.KernelIdeal.Gen Cert.KernelIdeal.Frm
open Idealize.ShloMosaic Idealize.ShloMosaic.TcCoe Idealize.SL.Sem Idealize.ShloMosaic.ValueIdx

variable (m : (ℓ : Loc nD τ sig) → Buf (Elt Ideal) ℓ)

/-- The product of the embedding table with the transpose of a basis table: a 26 x 8 table. -/
abbrev tab (E : FVec Ideal S26x64 .f32) (B : FVec Ideal S8x64 .f32) : FVec Ideal S26x8 .f32 :=
  Host.dotGeneral (F := Ideal) (φ₁ := .f32) (φ₂ := .f32) dot_S26x64_S64x8_S26x8_1_0_0_1_n_n (some .fp32) E
    (transpose S64x8 [1, 0] B transposes_S8x64_S64x8_1_0)

/-- The 26 x 64 by 64 x 8 product at `(v, j)`: the sum over the contracted coordinate of the entries' products. -/
theorem dot_apply (A : FVec Ideal S26x64 .f32) (T : FVec Ideal S64x8 .f32) (v : Fin 26) (j : Fin 8) :
    Host.dotGeneral (F := Ideal) dot_S26x64_S64x8_S26x8_1_0_0_1_n_n (some .fp32) A T (ix2 v j)
      = ∑ c : Fin 64, A (ix2 v c) * T (ix2 c j) := by
  show FloatOps.dotGeneral _ (some .fp32) _ A T (ix2 v j) = _
  rw [Ideal.dotGeneral_apply, ← Equiv.sum_comp (contrEquiv1 dot_S26x64_S64x8_S26x8_1_0_0_1_n_n 64 rfl rfl).symm]
  refine Finset.sum_congr rfl fun c _ => ?_
  have c2 := contrEquiv1_symm_val dot_S26x64_S64x8_S26x8_1_0_0_1_n_n 64 rfl rfl c
  have l2 : dot_S26x64_S64x8_S26x8_1_0_0_1_n_n.lhsIdx (ix2 v j) ((contrEquiv1 _ 64 rfl rfl).symm c) = ix2 v c := by
    funext ax; apply Fin.ext
    match ax with
    | ⟨0, _⟩ => simp [DotDims.lhsIdx, dot_S26x64_S64x8_S26x8_1_0_0_1_n_n]; rfl
    | ⟨1, _⟩ => simp [DotDims.lhsIdx, dot_S26x64_S64x8_S26x8_1_0_0_1_n_n]; exact c2
  have r2 : dot_S26x64_S64x8_S26x8_1_0_0_1_n_n.rhsIdx (ix2 v j) ((contrEquiv1 _ 64 rfl rfl).symm c) = ix2 c j := by
    funext ax; apply Fin.ext
    match ax with
    | ⟨0, _⟩ => simp [DotDims.rhsIdx, dot_S26x64_S64x8_S26x8_1_0_0_1_n_n]; exact c2
    | ⟨1, _⟩ => simp [DotDims.rhsIdx, dot_S26x64_S64x8_S26x8_1_0_0_1_n_n]; rfl
  rw [l2, r2]

/-- Entry `(v, j)` of the product with the transposed basis table is row `v` of the embedding table against row `j`
    of the basis table. -/
theorem tab_apply (E : FVec Ideal S26x64 .f32) (B : FVec Ideal S8x64 .f32) (v : Fin 26) (j : Fin 8) :
    tab E B (ix2 v j) = Cert.Spec.rowDot B E j v := by
  unfold Cert.Spec.rowDot
  refine (dot_apply E _ v j).trans (Finset.sum_congr rfl fun c _ => ?_)
  congr 1
  exact transpose_apply [1, 0] B transposes_S8x64_S64x8_1_0 (ix2 c j) (ix2 j c)
    (fun b => by match b with | ⟨0, _⟩ => rfl | ⟨1, _⟩ => rfl)

/-- Three 26 x 8 tables side by side, read in the first, second and third span of eight columns. -/
theorem concat_piece0 (x0 x1 x2 : FVec Ideal S26x8 .f32) (v : Fin 26) (j : Fin 8) :
    concatenate S26x24 1 [⟨S26x8, x0⟩, ⟨S26x8, x1⟩, ⟨S26x8, x2⟩] concatenates_S26x8_S26x8_S26x8_S26x24_d1
      (ix2 v ⟨j.val, by omega⟩) = x0 (ix2 v j) :=
  concatenate_apply_piece (t := S26x24) 1 [⟨S26x8, x0⟩, ⟨S26x8, x1⟩, ⟨S26x8, x2⟩] concatenates_S26x8_S26x8_S26x8_S26x24_d1 _
    0 (show (0 : Nat) < 3 by omega) S26x8 x0 rfl rfl 0 rfl
    (ix2 v j) (fun b hb => by match b with | ⟨0, _⟩ => rfl | ⟨1, _⟩ => exact absurd rfl hb) (by show 0 + j.val = j.val; omega)
theorem concat_piece1 (x0 x1 x2 : FVec Ideal S26x8 .f32) (v : Fin 26) (j : Fin 8) :
    concatenate S26x24 1 [⟨S26x8, x0⟩, ⟨S26x8, x1⟩, ⟨S26x8, x2⟩] concatenates_S26x8_S26x8_S26x8_S26x24_d1
      (ix2 v ⟨8 + j.val, by omega⟩) = x1 (ix2 v j) :=
  concatenate_apply_piece (t := S26x24) 1 [⟨S26x8, x0⟩, ⟨S26x8, x1⟩, ⟨S26x8, x2⟩] concatenates_S26x8_S26x8_S26x8_S26x24_d1 _
    1 (show (1 : Nat) < 3 by omega) S26x8 x1 rfl rfl 8 rfl
    (ix2 v j) (fun b hb => by match b with | ⟨0, _⟩ => rfl | ⟨1, _⟩ => exact absurd rfl hb) rfl
theorem concat_piece2 (x0 x1 x2 : FVec Ideal S26x8 .f32) (v : Fin 26) (j : Fin 8) :
    concatenate S26x24 1 [⟨S26x8, x0⟩, ⟨S26x8, x1⟩, ⟨S26x8, x2⟩] concatenates_S26x8_S26x8_S26x8_S26x24_d1
      (ix2 v ⟨16 + j.val, by omega⟩) = x2 (ix2 v j) :=
  concatenate_apply_piece (t := S26x24) 1 [⟨S26x8, x0⟩, ⟨S26x8, x1⟩, ⟨S26x8, x2⟩] concatenates_S26x8_S26x8_S26x8_S26x24_d1 _
    2 (show (2 : Nat) < 3 by omega) S26x8 x2 rfl rfl 16 rfl
    (ix2 v j) (fun b hb => by match b with | ⟨0, _⟩ => rfl | ⟨1, _⟩ => exact absurd rfl hb) rfl

/-- The coefficient matrix transposed, recast to 256 x 2 x 64 and then to 256 x 128, at `(h, cc)`: row-major position
    `128 h + cc = 64 (2 h + cc / 64) + cc % 64`, which is entry `(2 h + cc / 64, cc % 64)` of the transpose. -/
theorem av_apply (A : FVec Ideal S64x512 .f32) (h : Fin 256) (cc : Fin 128) :
    (truncf (F := Ideal) .bf16 (shapeCast S256x128 (shapeCast S256x2x64 (transpose S512x64 [1, 0] A transposes_S64x512_S512x64_1_0)
        shapeCasts_S512x64_S256x2x64) shapeCasts_S256x2x64_S256x128 : FVec Ideal S256x128 .f32) bitsLt_bf16_f32
        : FVec Ideal S256x128 .bf16) (ix2 h cc)
      = A (ix2 ⟨cc.val % 64, Nat.mod_lt _ (by decide)⟩ ⟨2 * h.val + cc.val / 64, by have := h.isLt; have := cc.isLt; omega⟩) := by
  have hh := h.isLt
  have hc := cc.isLt
  refine (truncf_apply _ bitsLt_bf16_f32 (ix2 h cc)).trans ?_
  refine (shapeCast_apply _ shapeCasts_S256x2x64_S256x128 (ix2 h cc)
    (ix3 h (⟨cc.val / 64, by omega⟩ : Fin 2) (⟨cc.val % 64, Nat.mod_lt _ (by decide)⟩ : Fin 64)) ?_).trans ?_
  · rw [Shape.rowMajor_val_three, Shape.rowMajor_val_two]
    show (h.val * 2 + cc.val / 64) * 64 + cc.val % 64 = h.val * 128 + cc.val
    omega
  refine (shapeCast_apply _ shapeCasts_S512x64_S256x2x64
    (ix3 h (⟨cc.val / 64, by omega⟩ : Fin 2) (⟨cc.val % 64, Nat.mod_lt _ (by decide)⟩ : Fin 64))
    (ix2 (⟨2 * h.val + cc.val / 64, by omega⟩ : Fin 512) (⟨cc.val % 64, Nat.mod_lt _ (by decide)⟩ : Fin 64)) ?_).trans ?_
  · rw [Shape.rowMajor_val_three, Shape.rowMajor_val_two]
    show (2 * h.val + cc.val / 64) * 64 + cc.val % 64 = (h.val * 2 + cc.val / 64) * 64 + cc.val % 64
    omega
  exact transpose_apply [1, 0] A transposes_S64x512_S512x64_1_0
    (ix2 (⟨2 * h.val + cc.val / 64, by omega⟩ : Fin 512) (⟨cc.val % 64, Nat.mod_lt _ (by decide)⟩ : Fin 64))
    (ix2 (⟨cc.val % 64, Nat.mod_lt _ (by decide)⟩ : Fin 64) (⟨2 * h.val + cc.val / 64, by omega⟩ : Fin 512))
    (fun b => by match b with | ⟨0, _⟩ => rfl | ⟨1, _⟩ => rfl)

/-- The 26 x 24 table as the host operations' term of the launch arrays: the three products side by side. -/
theorem V_main_v6 (c : Dev nD) :
    (V m c main_v6 : FVec Ideal S26x24 .f32) =
      concatenate S26x24 1
        [⟨S26x8, tab (m ((c : Thread nD τ).loc main_arg0)) (m ((c : Thread nD τ).loc main_arg2))⟩,
         ⟨S26x8, tab (m ((c : Thread nD τ).loc main_arg0)) (m ((c : Thread nD τ).loc main_arg3))⟩,
         ⟨S26x8, tab (m ((c : Thread nD τ).loc main_arg0)) (m ((c : Thread nD τ).loc main_arg4))⟩]
        concatenates_S26x8_S26x8_S26x8_S26x24_d1 := by
  dsimp only [V, hostOps0]; after_results; rfl

/-- The 256 x 128 table as the host operations' term of the launch arrays: the coefficient matrix transposed,
    recast twice and narrowed. -/
theorem V_main_v10 (c : Dev nD) :
    (V m c main_v10 : FVec Ideal S256x128 .bf16) =
      truncf (F := Ideal) .bf16 (shapeCast S256x128 (shapeCast S256x2x64 (transpose S512x64 [1, 0]
        (m ((c : Thread nD τ).loc main_arg1) : FVec Ideal S64x512 .f32) transposes_S64x512_S512x64_1_0)
        shapeCasts_S512x64_S256x2x64) shapeCasts_S256x2x64_S256x128 : FVec Ideal S256x128 .f32) bitsLt_bf16_f32 := by
  dsimp only [V, hostOps0]; after_results; rfl

/-- The 26 x 24 table the host code hands the region: entry `(v, 8 x + j)` is row `v` of the embedding table against row
    `j` of basis table `x` (`x = 0, 1, 2` for the three axes). -/
theorem table_S0 (c : Dev nD) (v : Fin 26) (j : Fin 8) :
    (V m c main_v6 : FVec Ideal S26x24 .f32) (ix2 v ⟨j.val, by omega⟩)
      = Cert.Spec.rowDot (m ((c : Thread nD τ).loc main_arg2)) (m ((c : Thread nD τ).loc main_arg0)) j v := by
  rw [V_main_v6]
  exact (concat_piece0 _ _ _ v j).trans (tab_apply _ _ v j)
theorem table_S1 (c : Dev nD) (v : Fin 26) (j : Fin 8) :
    (V m c main_v6 : FVec Ideal S26x24 .f32) (ix2 v ⟨8 + j.val, by omega⟩)
      = Cert.Spec.rowDot (m ((c : Thread nD τ).loc main_arg3)) (m ((c : Thread nD τ).loc main_arg0)) j v := by
  rw [V_main_v6]
  exact (concat_piece1 _ _ _ v j).trans (tab_apply _ _ v j)
theorem table_S2 (c : Dev nD) (v : Fin 26) (j : Fin 8) :
    (V m c main_v6 : FVec Ideal S26x24 .f32) (ix2 v ⟨16 + j.val, by omega⟩)
      = Cert.Spec.rowDot (m ((c : Thread nD τ).loc main_arg4)) (m ((c : Thread nD τ).loc main_arg0)) j v := by
  rw [V_main_v6]
  exact (concat_piece2 _ _ _ v j).trans (tab_apply _ _ v j)

/-- The 256 x 128 table the host code hands the region: row `h` holds coefficient columns `2h` (its first 64 entries)
    and `2h + 1` (its last 64). -/
theorem table_Av (c : Dev nD) (h : Fin 256) (cc : Fin 128) :
    (V m c main_v10 : FVec Ideal S256x128 .bf16) (ix2 h cc)
      = (m ((c : Thread nD τ).loc main_arg1) : FVec Ideal S64x512 .f32) (ix2 ⟨cc.val % 64, Nat.mod_lt _ (by decide)⟩ ⟨2 * h.val + cc.val / 64, by have := h.isLt; have := cc.isLt; omega⟩) := by
  rw [V_main_v10]
  exact av_apply _ h cc

end Cert.KernelIdeal.Tables

end
-- ==== Proof.KernelFinal.lean ====
import proofs.«402731_j85882166050871_3_alg».proof.Proof.KernelIdealFrame
import proofs.«402731_j85882166050871_3_alg».proof.Proof.KernelPay
import proofs.«402731_j85882166050871_3_alg».proof.Proof.KernelTables
import proofs.«402731_j85882166050871_3_alg».proof.Proof.Spec
import Idealize.ShloMosaic.Lib.ValueIdx
import Idealize.ShloMosaic.Lib.Pipeline.Value

/-!
# The kernel's result array

Point `t` of the grid of 256 handles positions `4096 t … 4096 t + 4095`: its four index blocks are those rows of the
four index arrays, its two tables are whole, and it writes back rows `4096 t …` of the result. So the 256 blocks tile
the result array, and element `(n, k)` of it is the body's value at row `n mod 4096` of point `n / 4096`: a function
of position `n`'s four words and of the two tables. With the tables read entry by entry that function is the
specification's.
-/

set_option maxRecDepth 16384

noncomputable section

namespace Cert.KernelIdeal.Final

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The index maps over the grid: the four index windows and the result window are at block `t` on their long axis,
    the two tables at block 0. -/
theorem idx_facts : ∀ t : Fin cfg0.N, win0_0.index t (0 : Fin 1) = t.val ∧ win0_1.index t (0 : Fin 1) = t.val
    ∧ win0_2.index t (0 : Fin 1) = t.val ∧ win0_3.index t (0 : Fin 1) = t.val
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The result array the kernel leaves, over the region-entry contents: at `(n, k)` the body's closed form of
    position `n`'s four words and the two tables. -/
def Gk (c : Dev nD) : FVec Ideal S1048576x64 .f32 := fun i =>
  Cert.Spec.kerAt (V m c main_v6) (V m c main_v10)
    ((V m c main_arg5 : IVec S1048576 32) (ix1 (i 0))) ((V m c main_arg6 : IVec S1048576 32) (ix1 (i 0)))
    ((V m c main_arg7 : IVec S1048576 32) (ix1 (i 0))) ((V m c main_arg8 : IVec S1048576 32) (ix1 (i 0))) (i 1)

/-- Row `r` of index window 0's block at point `t` is position `4096 t + r` of its array. -/
theorem iblk0_apply (c : Dev nD) (t : Fin cfg0.N) (r : Fin 4096) (n : Fin 1048576) (hn : n.val = t.val * 4096 + r.val) :
    (iblk m c 0 t : IVec S4096 32) (ix1 r) = (V m c main_arg5 : IVec S1048576 32) (ix1 n) := by
  obtain ⟨e0, e1, e2, e3, -⟩ := idx_facts t
  unfold iblk
  rw [View.read_apply]
  show V m c main_arg5 _ = V m c main_arg5 _
  refine congrArg (V m c main_arg5) (funext fun a => Fin.ext ?_)
  match a with
  | ⟨0, _⟩ => show win0_0.index t (0 : Fin 1) * 4096 + 1 * r.val = n.val; rw [e0, hn]; omega
/-- Row `r` of index window 1's block at point `t` is position `4096 t + r` of its array. -/
theorem iblk1_apply (c : Dev nD) (t : Fin cfg0.N) (r : Fin 4096) (n : Fin 1048576) (hn : n.val = t.val * 4096 + r.val) :
    (iblk m c 1 t : IVec S4096 32) (ix1 r) = (V m c main_arg6 : IVec S1048576 32) (ix1 n) := by
  obtain ⟨e0, e1, e2, e3, -⟩ := idx_facts t
  unfold iblk
  rw [View.read_apply]
  show V m c main_arg6 _ = V m c main_arg6 _
  refine congrArg (V m c main_arg6) (funext fun a => Fin.ext ?_)
  match a with
  | ⟨0, _⟩ => show win0_1.index t (0 : Fin 1) * 4096 + 1 * r.val = n.val; rw [e1, hn]; omega
/-- Row `r` of index window 2's block at point `t` is position `4096 t + r` of its array. -/
theorem iblk2_apply (c : Dev nD) (t : Fin cfg0.N) (r : Fin 4096) (n : Fin 1048576) (hn : n.val = t.val * 4096 + r.val) :
    (iblk m c 2 t : IVec S4096 32) (ix1 r) = (V m c main_arg7 : IVec S1048576 32) (ix1 n) := by
  obtain ⟨e0, e1, e2, e3, -⟩ := idx_facts t
  unfold iblk
  rw [View.read_apply]
  show V m c main_arg7 _ = V m c main_arg7 _
  refine congrArg (V m c main_arg7) (funext fun a => Fin.ext ?_)
  match a with
  | ⟨0, _⟩ => show win0_2.index t (0 : Fin 1) * 4096 + 1 * r.val = n.val; rw [e2, hn]; omega
/-- Row `r` of index window 3's block at point `t` is position `4096 t + r` of its array. -/
theorem iblk3_apply (c : Dev nD) (t : Fin cfg0.N) (r : Fin 4096) (n : Fin 1048576) (hn : n.val = t.val * 4096 + r.val) :
    (iblk m c 3 t : IVec S4096 32) (ix1 r) = (V m c main_arg8 : IVec S1048576 32) (ix1 n) := by
  obtain ⟨e0, e1, e2, e3, -⟩ := idx_facts t
  unfold iblk
  rw [View.read_apply]
  show V m c main_arg8 _ = V m c main_arg8 _
  refine congrArg (V m c main_arg8) (funext fun a => Fin.ext ?_)
  match a with
  | ⟨0, _⟩ => show win0_3.index t (0 : Fin 1) * 4096 + 1 * r.val = n.val; rw [e3, hn]; omega

/-- Window 4's block at any point is the whole 26 x 24 table. -/
theorem iblk4_eq (c : Dev nD) (t : Fin cfg0.N) : (iblk m c 4 t : FVec Ideal S26x24 .f32) = V m c main_v6 := by
  obtain ⟨-, -, -, -, e0, e1, -⟩ := idx_facts t
  funext y
  unfold iblk
  rw [View.read_apply]
  show V m c main_v6 _ = V m c main_v6 y
  refine congrArg (V m c main_v6) (funext fun a => Fin.ext ?_)
  match a with
  | ⟨0, _⟩ => show win0_4.index t (0 : Fin 2) * 26 + 1 * (y 0).val = (y 0).val; rw [e0]; omega
  | ⟨1, _⟩ => show win0_4.index t (1 : Fin 2) * 24 + 1 * (y 1).val = (y 1).val; rw [e1]; omega

/-- Window 5's block at any point is the whole 256 x 128 table. -/
theorem iblk5_eq (c : Dev nD) (t : Fin cfg0.N) : (iblk m c 5 t : FVec Ideal S256x128 .bf16) = V m c main_v10 := by
  obtain ⟨-, -, -, -, -, -, e0, e1, -⟩ := idx_facts t
  funext y
  unfold iblk
  rw [View.read_apply]
  show V m c main_v10 _ = V m c main_v10 y
  refine congrArg (V m c main_v10) (funext fun a => Fin.ext ?_)
  match a with
  | ⟨0, _⟩ => show win0_5.index t (0 : Fin 2) * 256 + 1 * (y 0).val = (y 0).val; rw [e0]; omega
  | ⟨1, _⟩ => show win0_5.index t (1 : Fin 2) * 128 + 1 * (y 1).val = (y 1).val; rw [e1]; omega

/-- What point `t` writes back is block `t` of `Gk`, when every token word is below 26. -/
theorem flushed_eq (c : Dev nD)
    (htok : ∀ n : Fin 1048576, ((V m c main_arg5 : IVec S1048576 32) (ix1 n)).toNat < 26) (t : Fin cfg0.N) :
    (dats m 0 c).flushed 6 t = ((cfg0.win 6).blk t).view.read (Elt Ideal) (Gk m c) := by
  show (cfg0.win 6).cut (grid0.coords t) ((dats m 0 c).after 6 t) = _
  rw [after0_6]
  unfold outBlk
  rw [View.canon_unit_zero hz2]
  simp only [View.ld_unit_zero (S := S4096) hz1, View.ld_unit_zero (S := S26x24) hz2, View.ld_unit_zero (S := S256x128) hz2]
  obtain ⟨-, -, -, -, -, -, -, -, e0, e1⟩ := idx_facts t
  have hN : cfg0.N = 256 := N_0
  have ht : t.val < 256 := hN ▸ t.isLt
  funext j
  obtain ⟨r, k, rfl⟩ : ∃ (r : Fin 4096) (k : Fin 64), j = ix2 r k := ⟨j 0, j 1, eq_ix2 j⟩
  let n : Fin 1048576 := ⟨t.val * 4096 + r.val, by have := r.isLt; omega⟩
  have hemb : ((cfg0.win 6).blk t).view.emb (ix2 r k) = (ix2 n k : S1048576x64.Idx) := by
    funext a; apply Fin.ext
    match a with
    | ⟨0, _⟩ => show win0_6.index t (0 : Fin 2) * 4096 + 1 * r.val = t.val * 4096 + r.val; rw [e0]; omega
    | ⟨1, _⟩ => show win0_6.index t (1 : Fin 2) * 64 + 1 * k.val = k.val; rw [e1]; omega
  show (k0_pay1 (F := Ideal) (k0_pay2 (F := Ideal) (iblk m c 1 t)) (k0_pay3 (F := Ideal) (iblk m c 2 t)) (k0_pay4 (F := Ideal) (iblk m c 3 t))
      (k0_pay5 (F := Ideal) (iblk m c 0 t) (iblk m c 1 t) (iblk m c 2 t) (iblk m c 3 t) (iblk m c 4 t)) (iblk m c 5 t) : FVec Ideal S4096x64 .f32) (ix2 r k)
    = Gk m c (((cfg0.win 6).blk t).view.emb (ix2 r k))
  rw [hemb]
  refine (Cert.KernelIdeal.Pay.pay_apply (iblk m c 0 t) (iblk m c 1 t) (iblk m c 2 t) (iblk m c 3 t) (iblk m c 4 t) (iblk m c 5 t) r k
    (by rw [iblk0_apply m c t r n rfl]; exact htok n)).trans ?_
  unfold Gk
  rw [iblk0_apply m c t r n rfl, iblk1_apply m c t r n rfl, iblk2_apply m c t r n rfl, iblk3_apply m c t r n rfl, iblk4_eq, iblk5_eq]

/-- An index of the result array is in point `t`'s block iff each coordinate is in the block's range on its axis. -/
theorem mem_blk (t : Fin cfg0.N) (i : S1048576x64.Idx) :
    i ∈ ((cfg0.win 6).blk t).view.set ↔ ∀ a : Fin 2, win0_6.index t a * S4096x64.size a ≤ (i a).val ∧ (i a).val < win0_6.index t a * S4096x64.size a + S4096x64.size a := by
  show i ∈ ((View.whole main_v11).slice (win0_6.rect t)).set ↔ _
  rw [View.set_slice_whole, Rect.mem_set_unit]
  exact Iff.rfl

/-- Every element of the result array is in the block of the point that handles its position. -/
theorem cover (i : S1048576x64.Idx) : ∃ t : Fin cfg0.N, (cfg0.win 6).flush t = true ∧ i ∈ ((cfg0.win 6).blk t).view.set := by
  have hN : cfg0.N = 256 := N_0
  have hi0 : (i 0).val < 1048576 := (i 0).isLt
  have hi1 : (i 1).val < 64 := (i 1).isLt
  let t : Fin cfg0.N := ⟨(i 0).val / 4096, by rw [hN]; omega⟩
  obtain ⟨-, -, -, -, -, -, -, -, e0, e1⟩ := idx_facts t
  have ht : t.val = (i 0).val / 4096 := rfl
  refine ⟨t, flush0_6 t, ?_⟩
  rw [mem_blk]
  intro a
  match a with
  | ⟨0, _⟩ => show win0_6.index t (0 : Fin 2) * 4096 ≤ (i 0).val ∧ (i 0).val < win0_6.index t (0 : Fin 2) * 4096 + 4096; rw [e0, ht]; omega
  | ⟨1, _⟩ => show win0_6.index t (1 : Fin 2) * 64 ≤ (i 1).val ∧ (i 1).val < win0_6.index t (1 : Fin 2) * 64 + 64; rw [e1]; omega

/-- The result array after the run is `Gk`. -/
theorem final (c : Dev nD) (htok : ∀ n : Fin 1048576, ((V m c main_arg5 : IVec S1048576 32) (ix1 n)).toNat < 26) :
    (dats m 0 c).arrAt 6 cfg0.N = Gk m c :=
  (dats m 0 c).arrAt_eq_of_cover 6 (Gk m c) (fun t _ => flushed_eq m c htok t) cover

/-- With the two tables read entry by entry, `Gk` is the specification's array of the nine launch arrays. -/
theorem Gk_eq (c : Dev nD) (htok : ∀ n : Fin 1048576, ((m ((c : Thread nD τ).loc main_arg5) : IVec S1048576 32) (ix1 n)).toNat < 26) :
    Gk m c = Cert.Spec.G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  funext i
  unfold Gk Cert.Spec.G Cert.Spec.kerAt Cert.Spec.atPos
  rw [V_main_arg5, V_main_arg6, V_main_arg7, V_main_arg8]
  rw [Cert.KernelIdeal.Tables.table_S0, Cert.KernelIdeal.Tables.table_S1, Cert.KernelIdeal.Tables.table_S2, Cert.KernelIdeal.Tables.table_Av]
  have h1 : (i 1).val < 64 := (i 1).isLt
  congr 2
  funext a; apply Fin.ext
  match a with
  | ⟨0, _⟩ => show ((Cert.Spec.flat _ _ _).val % 2 * 64 + (i 1).val) % 64 = (i 1).val; omega
  | ⟨1, _⟩ => show 2 * ((Cert.Spec.flat _ _ _).val / 2) + ((Cert.Spec.flat _ _ _).val % 2 * 64 + (i 1).val) / 64 = (Cert.Spec.flat _ _ _).val; omega

/-- The run, read: the result array at the specification's function of the launch arrays, the arguments unchanged,
    from a launch memory whose token words are all below 26. -/
theorem run (htok : ∀ (c : Dev nD) (n : Fin 1048576), ((m ((c : Thread nD τ).loc main_arg5) : IVec S1048576 32) (ix1 n)).toNat < 26) :
    θ_run defs (onTc (τ := τ) (main (F := Ideal))) ⟨m, fun _ => 0, ρ⟩ fun r => ∀ c : Dev nD,
      r.2.mem ((c : Thread nD τ).loc main_v11) = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
      have htokV : ∀ n : Fin 1048576, ((V m c main_arg5 : IVec S1048576 32) (ix1 n)).toNat < 26 := fun n => by
        rw [V_main_arg5]; exact htok c n
      ⟨((h c).1 6).trans ((final m c htokV).trans (Gk_eq m c (htok c))),
       ((h c).2 main_arg0 (Pipeline.mem_restRefs_of main_arg0 (by decide) (by decide))).trans (V_main_arg0 m c),
       ((h c).2 main_arg1 (Pipeline.mem_restRefs_of main_arg1 (by decide) (by decide))).trans (V_main_arg1 m c),
       ((h c).2 main_arg2 (Pipeline.mem_restRefs_of main_arg2 (by decide) (by decide))).trans (V_main_arg2 m c),
       ((h c).2 main_arg3 (Pipeline.mem_restRefs_of main_arg3 (by decide) (by decide))).trans (V_main_arg3 m c),
       ((h c).2 main_arg4 (Pipeline.mem_restRefs_of main_arg4 (by decide) (by decide))).trans (V_main_arg4 m c),
       ((h c).1 0).trans (((dats m 0 c).arrAt_in 0 rfl _).trans ((A_eq m c 0).trans (V_main_arg5 m c))),
       ((h c).1 1).trans (((dats m 0 c).arrAt_in 1 rfl _).trans ((A_eq m c 1).trans (V_main_arg6 m c))),
       ((h c).1 2).trans (((dats m 0 c).arrAt_in 2 rfl _).trans ((A_eq m c 2).trans (V_main_arg7 m c))),
       ((h c).1 3).trans (((dats m 0 c).arrAt_in 3 rfl _).trans ((A_eq m c 3).trans (V_main_arg8 m c)))⟩)
    (run_main m ρ)

end Cert.KernelIdeal.Final

end
-- ==== Proof.RefRun.lean ====
import proofs.«402731_j85882166050871_3_alg».proof.Proof.Gen.ReferenceIdeal
import Idealize.ShloMosaic.Lib.StableHlo.Run
import Idealize.ShloMosaic.Lib.Pipeline.Regions

/-!
# The reference's run

The reference is a straight line of host operations: three floor-remainders by 8 (each a call of an outlined
function, its twenty-one operations written out at the call), four index wrap-arounds followed by row gathers,
three row dot products, their product, the flat coefficient index and the final product. This module lists the
operations in order, shows that @main is that line, and reads the run off it: every buffer ends at the fold of
the operations over the launch memory.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the outlined functions' bodies written out at their calls. -/
abbrev ops : List (HloOp τ sig (Elt F)) :=
  [ nullary main_c (constantI S_ 32 8#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S1048576 ![] bcast_S_S1048576),
    TRef.binary (.of main_arg6) main_call0.v3 main_call0.v4 Host.remsi,
    TRef.nullary main_call0.c_1 (constantI S_ 32 0#32),
    TRef.unary main_call0.c_1 main_call0.v5 (broadcastInDim S1048576 ![] bcast_S_S1048576),
    TRef.binary main_call0.v4 main_call0.v5 main_call0.v6 (cmpi .ne),
    TRef.nullary main_call0.c_2 (constantI S_ 32 0#32),
    TRef.unary main_call0.c_2 main_call0.v7 (broadcastInDim S1048576 ![] bcast_S_S1048576),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S1048576 ![] bcast_S_S1048576),
    TRef.binary main_call0.v8 main_call0.v10 main_call0.v11 (cmpi .ne),
    TRef.binary main_call0.v11 main_call0.v6 main_call0.v12 andi,
    TRef.unary main_call0.call0.v0 main_call0.v13 (broadcastInDim S1048576 ![] bcast_S_S1048576),
    TRef.binary main_call0.v4 main_call0.v13 main_call0.v14 addi,
    TRef.ternary main_call0.v12 main_call0.v14 main_call0.v4 main_call0.v15 select,
    nullary main_c_0 (constantI S_ 32 8#32),
    TRef.unary (.of main_c_0) main_call1.v0 id,
    TRef.nullary main_call1.c (constantI S_ 32 0#32),
    TRef.binary main_call1.v0 main_call1.c main_call1.v1 (cmpi .eq),
    TRef.nullary main_call1.c_0 (constantI S_ 32 1#32),
    TRef.ternary main_call1.v1 main_call1.c_0 main_call1.v0 main_call1.call0.v0 select,
    TRef.unary main_call1.call0.v0 main_call1.v3 (broadcastInDim S1048576 ![] bcast_S_S1048576),
    TRef.binary (.of main_arg7) main_call1.v3 main_call1.v4 Host.remsi,
    TRef.nullary main_call1.c_1 (constantI S_ 32 0#32),
    TRef.unary main_call1.c_1 main_call1.v5 (broadcastInDim S1048576 ![] bcast_S_S1048576),
    TRef.binary main_call1.v4 main_call1.v5 main_call1.v6 (cmpi .ne),
    TRef.nullary main_call1.c_2 (constantI S_ 32 0#32),
    TRef.unary main_call1.c_2 main_call1.v7 (broadcastInDim S1048576 ![] bcast_S_S1048576),
    TRef.binary main_call1.v4 main_call1.v7 main_call1.v8 (cmpi .slt),
    TRef.nullary main_call1.c_3 (constantI S_ 32 0#32),
    TRef.binary main_call1.call0.v0 main_call1.c_3 main_call1.v9 (cmpi .slt),
    TRef.unary main_call1.v9 main_call1.v10 (broadcastInDim S1048576 ![] bcast_S_S1048576),
    TRef.binary main_call1.v8 main_call1.v10 main_call1.v11 (cmpi .ne),
    TRef.binary main_call1.v11 main_call1.v6 main_call1.v12 andi,
    TRef.unary main_call1.call0.v0 main_call1.v13 (broadcastInDim S1048576 ![] bcast_S_S1048576),
    TRef.binary main_call1.v4 main_call1.v13 main_call1.v14 addi,
    TRef.ternary main_call1.v12 main_call1.v14 main_call1.v4 main_call1.v15 select,
    nullary main_c_1 (constantI S_ 32 8#32),
    TRef.unary (.of main_c_1) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S1048576 ![] bcast_S_S1048576),
    TRef.binary (.of main_arg8) main_call2.v3 main_call2.v4 Host.remsi,
    TRef.nullary main_call2.c_1 (constantI S_ 32 0#32),
    TRef.unary main_call2.c_1 main_call2.v5 (broadcastInDim S1048576 ![] bcast_S_S1048576),
    TRef.binary main_call2.v4 main_call2.v5 main_call2.v6 (cmpi .ne),
    TRef.nullary main_call2.c_2 (constantI S_ 32 0#32),
    TRef.unary main_call2.c_2 main_call2.v7 (broadcastInDim S1048576 ![] bcast_S_S1048576),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S1048576 ![] bcast_S_S1048576),
    TRef.binary main_call2.v8 main_call2.v10 main_call2.v11 (cmpi .ne),
    TRef.binary main_call2.v11 main_call2.v6 main_call2.v12 andi,
    TRef.unary main_call2.call0.v0 main_call2.v13 (broadcastInDim S1048576 ![] bcast_S_S1048576),
    TRef.binary main_call2.v4 main_call2.v13 main_call2.v14 addi,
    TRef.ternary main_call2.v12 main_call2.v14 main_call2.v4 main_call2.v15 select,
    nullary main_c_2 (constantI S_ 32 0#32),
    unary main_c_2 main_v3 (broadcastInDim S1048576 ![] bcast_S_S1048576),
    binary main_arg5 main_v3 main_v4 (cmpi .slt),
    nullary main_c_3 (constantI S_ 32 26#32),
    unary main_c_3 main_v5 (broadcastInDim S1048576 ![] bcast_S_S1048576),
    binary main_arg5 main_v5 main_v6 addi,
    ternary main_v4 main_v6 main_arg5 main_v7 select,
    unary main_v7 main_v8 (broadcastInDim S1048576x1 ![0] bcast_S1048576_S1048576x1_0),
    binary main_arg0 main_v8 main_v9 (fun x i => Host.gather gather_S26x64_S1048576x1_S1048576x64_1_0_n_n_0_1_164 x i),
    nullary main_c_4 (constantI S_ 32 0#32),
    unary main_c_4 main_v10 (broadcastInDim S1048576 ![] bcast_S_S1048576),
    binary main_v0 main_v10 main_v11 (cmpi .slt),
    nullary main_c_5 (constantI S_ 32 8#32),
    unary main_c_5 main_v12 (broadcastInDim S1048576 ![] bcast_S_S1048576),
    binary main_v0 main_v12 main_v13 addi,
    ternary main_v11 main_v13 main_v0 main_v14 select,
    unary main_v14 main_v15 (broadcastInDim S1048576x1 ![0] bcast_S1048576_S1048576x1_0),
    binary main_arg2 main_v15 main_v16 (fun x i => Host.gather gather_S8x64_S1048576x1_S1048576x64_1_0_n_n_0_1_164 x i),
    binary main_v16 main_v9 main_v17 mulf,
    nullary main_cst (constant S_ .f32 0x00000000#32),
    binary main_v17 main_cst main_v18 (fun x v => Host.reduceAdd x v reducesTo_S1048576x64_S1048576_d1 h_S_),
    nullary main_c_6 (constantI S_ 32 0#32),
    unary main_c_6 main_v19 (broadcastInDim S1048576 ![] bcast_S_S1048576),
    binary main_v1 main_v19 main_v20 (cmpi .slt),
    nullary main_c_7 (constantI S_ 32 8#32),
    unary main_c_7 main_v21 (broadcastInDim S1048576 ![] bcast_S_S1048576),
    binary main_v1 main_v21 main_v22 addi,
    ternary main_v20 main_v22 main_v1 main_v23 select,
    unary main_v23 main_v24 (broadcastInDim S1048576x1 ![0] bcast_S1048576_S1048576x1_0),
    binary main_arg3 main_v24 main_v25 (fun x i => Host.gather gather_S8x64_S1048576x1_S1048576x64_1_0_n_n_0_1_164 x i),
    binary main_v25 main_v9 main_v26 mulf,
    nullary main_cst_8 (constant S_ .f32 0x00000000#32),
    binary main_v26 main_cst_8 main_v27 (fun x v => Host.reduceAdd x v reducesTo_S1048576x64_S1048576_d1 h_S_),
    nullary main_c_9 (constantI S_ 32 0#32),
    unary main_c_9 main_v28 (broadcastInDim S1048576 ![] bcast_S_S1048576),
    binary main_v2 main_v28 main_v29 (cmpi .slt),
    nullary main_c_10 (constantI S_ 32 8#32),
    unary main_c_10 main_v30 (broadcastInDim S1048576 ![] bcast_S_S1048576),
    binary main_v2 main_v30 main_v31 addi,
    ternary main_v29 main_v31 main_v2 main_v32 select,
    unary main_v32 main_v33 (broadcastInDim S1048576x1 ![0] bcast_S1048576_S1048576x1_0),
    binary main_arg4 main_v33 main_v34 (fun x i => Host.gather gather_S8x64_S1048576x1_S1048576x64_1_0_n_n_0_1_164 x i),
    binary main_v34 main_v9 main_v35 mulf,
    nullary main_cst_11 (constant S_ .f32 0x00000000#32),
    binary main_v35 main_cst_11 main_v36 (fun x v => Host.reduceAdd x v reducesTo_S1048576x64_S1048576_d1 h_S_),
    binary main_v18 main_v27 main_v37 mulf,
    binary main_v37 main_v36 main_v38 mulf,
    nullary main_c_12 (constantI S_ 32 64#32),
    unary main_c_12 main_v39 (broadcastInDim S1048576 ![] bcast_S_S1048576),
    binary main_v0 main_v39 main_v40 muli,
    nullary main_c_13 (constantI S_ 32 8#32),
    unary main_c_13 main_v41 (broadcastInDim S1048576 ![] bcast_S_S1048576),
    binary main_v1 main_v41 main_v42 muli,
    binary main_v40 main_v42 main_v43 addi,
    binary main_v43 main_v2 main_v44 addi,
    unary main_arg1 main_v45 (transpose S512x64 [1, 0] · transposes_S64x512_S512x64_1_0),
    nullary main_c_14 (constantI S_ 32 0#32),
    unary main_c_14 main_v46 (broadcastInDim S1048576 ![] bcast_S_S1048576),
    binary main_v44 main_v46 main_v47 (cmpi .slt),
    nullary main_c_15 (constantI S_ 32 512#32),
    unary main_c_15 main_v48 (broadcastInDim S1048576 ![] bcast_S_S1048576),
    binary main_v44 main_v48 main_v49 addi,
    ternary main_v47 main_v49 main_v44 main_v50 select,
    unary main_v50 main_v51 (broadcastInDim S1048576x1 ![0] bcast_S1048576_S1048576x1_0),
    binary main_v45 main_v51 main_v52 (fun x i => Host.gather gather_S512x64_S1048576x1_S1048576x64_1_0_n_n_0_1_164 x i),
    unary main_v38 main_v53 (broadcastInDim S1048576x1 ![0] bcast_S1048576_S1048576x1_0),
    unary main_v53 main_v54 (broadcastInDim S1048576x64 ![0, 1] bcast_S1048576x1_S1048576x64_0_1),
    binary main_v54 main_v52 main_v55 mulf ]

/-- @main is that straight line. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩

/-- From any memory with zero counters every weakly fair execution of @main terminates, and every buffer ends at
    the fold of the operations over the launch memory. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibScatterGatherRows.lean ====
import Idealize.ShloMosaic.Lib.ValueIdx
import Idealize.ShloMosaic.PureOps.Contract
import Mathlib.Algebra.BigOperators.Group.Finset.Basic
import Mathlib.Algebra.BigOperators.Group.Finset.Piecewise

/-!
# Row gather and row scatter-add, read at an index

Two array operations over a table of `N` rows, indexed by a column of `n` integer words:

* the ROW GATHER `table[idx]`: result row `e` is the table's row named by the `e`-th index word. The
  word is read as a SIGNED integer and CLAMPED into `[0, N − 1]` (a negative word reads row `0`, a word
  past the end reads the last row); the column is kept. `gather_rows` states this for an `N × D` table at
  one element `(e, k)`, for any element type.
* the ROW SCATTER-ADD (a segment sum, `table.at[idx].add(updates)`) over the extended reals: result
  element `(v, k)` is the operand's element plus the sum of the update elements `(e, k)` over exactly
  those update rows `e` whose index word, read SIGNED and NOT clamped, EQUALS `v`. An update row whose
  index is negative or at least `N` lands nowhere and is dropped. `resultIdx_rows` says where one update
  element lands; `hostScatterAdd_rows` / `scatterAdd_rows` give the sum for an `N × D` operand, and
  `resultIdx_vec` / `hostScatterAdd_vec` / `scatterAdd_vec` the same for a vector of `N` elements
  (updates a vector of `n` elements).

Every statement is for arbitrary extents `N`, `D`, `n` and any record of dimension numbers whose lists
are the ones named by the hypotheses (one collapsed / inserted row axis `0`, the index vector on axis
`1` of the `n × 1` index column, the column axis `1` an offset / window axis), so each applies to a
concrete record with `rfl` for every list.
-/

open scoped BigOperators

namespace Cert.LibScatterGatherRows

open Idealize.ShloMosaic Idealize.ShloMosaic.ValueIdx

/-! ## The row gather -/

/-- THE ROW GATHER AT `(e, k)`: the table at row "index word `e`, read signed and clamped into
    `[0, N − 1]`", column `k`. On the row axis (collapsed, start-indexed) the operand coordinate is the
    clamped start; on the column axis (an offset axis, not start-indexed) it is the result's column. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (e : Fin n) (k : Fin D) (hN : 0 < N) :
    Host.gather d x idx (ix2 e k) = x (ix2 ⟨min (idx (ix2 e 0)).toInt.toNat (N - 1), by omega⟩ k) := by
  -- the collapsed row axis has slice size 1, so the clamp's upper end is N − 1
  have hsl : d.sliceSizes 0 = 1 := d.slice_collapsed 0 (by rw [hcoll]; exact List.mem_singleton.mpr rfl)
  obtain ⟨off, coll, ob, sb, sim, ivd, ss, wf⟩ := d
  simp only at hoff hcoll hob hsim hivd hsl
  subst hoff hcoll hob hsim hivd
  unfold Host.gather
  congr 1
  funext a
  apply Fin.ext
  match a with
  | ⟨0, _⟩ =>
    -- the start index of result element (e, k) is read at (e, 0) of the index column
    have hsi : ∀ c, (GatherDims.siIdx ⟨[1], [0], [], sb, [0], 1, ss, wf⟩ (ix2 e k) c : (⟨2, ![n, 1]⟩ : Shape).Idx)
        = ix2 e 0 := by
      intro c
      funext b
      apply Fin.ext
      match b with
      | ⟨0, _⟩ => rfl
      | ⟨1, _⟩ =>
        have := c.isLt
        simp only [List.length_singleton] at this
        show c.val = 0
        omega
    show min (idx (GatherDims.siIdx _ _ _)).toInt.toNat (N - ss 0) + 0 + 0 = min (idx (ix2 e 0)).toInt.toNat (N - 1)
    rw [hsi, hsl]
    rfl
  | ⟨1, _⟩ =>
    -- the column axis: start 0, no batching, offset coordinate the result's column
    show GatherDims.start _ _ _ _ + GatherDims.batchCoord _ _ _ + GatherDims.offCoord _ _ _ = k.val
    rw [GatherDims.batchCoord_eq_zero _ _ _ List.not_mem_nil]
    unfold GatherDims.start GatherDims.offCoord
    split
    · next ha => exact absurd ha (show (1 : Fin 2) ∉ ([0] : List (Fin 2)) by decide)
    · split
      · rw [Nat.add_zero, Nat.zero_add]
        rfl
      · next ha => exact absurd (show (1 : Fin 2) ∈ ([1] : List (Fin 2)) by decide) ha

/-- The row gather of a table of extended reals (any float format's ideal values), at `(e, k)`. -/
theorem gather_rows_ideal {φ : FTy} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : FVec Ideal ⟨2, ![N, D]⟩ φ) (idx : IVec ⟨2, ![n, 1]⟩ w) (e : Fin n) (k : Fin D) (hN : 0 < N) :
    (Host.gather d x idx : FVec Ideal ⟨2, ![n, D]⟩ φ) (ix2 e k)
      = x (ix2 ⟨min (idx (ix2 e 0)).toInt.toNat (N - 1), by omega⟩ k) :=
  gather_rows d hoff hcoll hob hsim hivd x idx e k hN

/-! ## The row scatter-add over an `N × D` operand -/

/-- WHERE AN UPDATE ELEMENT LANDS: update element `(e, k')` lands on operand element `(v, k)` exactly when
    the `e`-th index word, read signed, is `v`, and the columns agree. (On the row axis the landing
    coordinate is the unclamped start plus window coordinate 0; on the column axis it is start 0 plus the
    update's column; a landing point outside the operand is no point at all.) -/
theorem resultIdx_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (k' : Fin D) (v : Fin N) (k : Fin D) :
    d.resultIdx? (ix2 e k') idx = some (ix2 v k) ↔ (idx (ix2 e 0)).toInt = (v.val : ℤ) ∧ k' = k := by
  obtain ⟨uw, iw, sd, ivd, wf⟩ := d
  simp only at huw hiw hsd hivd
  subst huw hiw hsd hivd
  -- the start and the window coordinate on each of the two operand axes
  have hs0 : ScatterDims.start ⟨[1], [0], [0], 1, wf⟩ (ix2 e k') idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 2) ∈ ([0] : List (Fin 2)) by decide) ha
  have hs1 : ScatterDims.start ⟨[1], [0], [0], 1, wf⟩ (ix2 e k') idx 1 = 0 := by
    unfold ScatterDims.start
    split
    · next ha => exact absurd ha (show (1 : Fin 2) ∉ ([0] : List (Fin 2)) by decide)
    · rfl
  have hw0 : ScatterDims.window ⟨[1], [0], [0], 1, wf⟩ (ix2 e k') 0 = 0 := by
    unfold ScatterDims.window
    split
    · next ha => exact absurd ha (show (0 : Fin 2) ∉ ([1] : List (Fin 2)) by decide)
    · rfl
  have hw1 : ScatterDims.window ⟨[1], [0], [0], 1, wf⟩ (ix2 e k') 1 = k'.val := by
    unfold ScatterDims.window
    split
    · rfl
    · next ha => exact absurd (show (1 : Fin 2) ∈ ([1] : List (Fin 2)) by decide) ha
  unfold ScatterDims.resultIdx?
  split
  · next h =>
    -- the landing point is inside the operand: compare it with (v, k) coordinate by coordinate
    have h0 := h 0
    rw [hs0, hw0] at h0
    constructor
    · intro hf
      have hf' := Option.some.inj hf
      have e0 : (ScatterDims.start ⟨[1], [0], [0], 1, wf⟩ (ix2 e k') idx 0
          + (ScatterDims.window ⟨[1], [0], [0], 1, wf⟩ (ix2 e k') 0 : ℕ)).toNat = v.val :=
        congrArg (fun f : (⟨2, ![N, D]⟩ : Shape).Idx => (f 0).val) hf'
      have e1 : (ScatterDims.start ⟨[1], [0], [0], 1, wf⟩ (ix2 e k') idx 1
          + (ScatterDims.window ⟨[1], [0], [0], 1, wf⟩ (ix2 e k') 1 : ℕ)).toNat = k.val :=
        congrArg (fun f : (⟨2, ![N, D]⟩ : Shape).Idx => (f 1).val) hf'
      rw [hs0, hw0] at e0
      rw [hs1, hw1] at e1
      exact ⟨by omega, Fin.ext (by omega)⟩
    · rintro ⟨hv, rfl⟩
      congr 1
      funext a
      apply Fin.ext
      match a with
      | ⟨0, _⟩ =>
        show (ScatterDims.start ⟨[1], [0], [0], 1, wf⟩ (ix2 e k') idx 0
          + (ScatterDims.window ⟨[1], [0], [0], 1, wf⟩ (ix2 e k') 0 : ℕ)).toNat = v.val
        rw [hs0, hw0]; omega
      | ⟨1, _⟩ =>
        show (ScatterDims.start ⟨[1], [0], [0], 1, wf⟩ (ix2 e k') idx 1
          + (ScatterDims.window ⟨[1], [0], [0], 1, wf⟩ (ix2 e k') 1 : ℕ)).toNat = k'.val
        rw [hs1, hw1]; omega
  · next h =>
    -- the landing point is outside the operand: then the index word is no row of it
    constructor
    · intro hf; exact absurd hf (by simp)
    · rintro ⟨hv, rfl⟩
      exfalso
      apply h
      intro a
      match a with
      | ⟨0, _⟩ =>
        show 0 ≤ ScatterDims.start ⟨[1], [0], [0], 1, wf⟩ (ix2 e k') idx 0
            + (ScatterDims.window ⟨[1], [0], [0], 1, wf⟩ (ix2 e k') 0 : ℕ)
          ∧ ScatterDims.start ⟨[1], [0], [0], 1, wf⟩ (ix2 e k') idx 0
            + (ScatterDims.window ⟨[1], [0], [0], 1, wf⟩ (ix2 e k') 0 : ℕ) < (N : ℤ)
        rw [hs0, hw0]
        have := v.isLt
        omega
      | ⟨1, _⟩ =>
        show 0 ≤ ScatterDims.start ⟨[1], [0], [0], 1, wf⟩ (ix2 e k') idx 1
            + (ScatterDims.window ⟨[1], [0], [0], 1, wf⟩ (ix2 e k') 1 : ℕ)
          ∧ ScatterDims.start ⟨[1], [0], [0], 1, wf⟩ (ix2 e k') idx 1
            + (ScatterDims.window ⟨[1], [0], [0], 1, wf⟩ (ix2 e k') 1 : ℕ) < (D : ℤ)
        rw [hs1, hw1]
        have := k'.isLt
        omega

/-- THE ROW SCATTER-ADD AT `(v, k)`: the operand's element plus the sum, over the update rows `e` whose
    index word read signed equals `v`, of the update element `(e, k)`. The sum over all update elements
    that land on `(v, k)` splits into rows and columns; in each row only column `k` can land there. -/
theorem hostScatterAdd_rows {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : (⟨2, ![N, D]⟩ : Shape).Idx → EReal) (idx : IVec ⟨2, ![n, 1]⟩ w)
    (upd : (⟨2, ![n, D]⟩ : Shape).Idx → EReal) (v : Fin N) (k : Fin D) :
    Ideal.hostScatterAdd d x idx upd (ix2 v k)
      = x (ix2 v k)
        + ∑ e ∈ Finset.univ.filter (fun e : Fin n => (idx (ix2 e 0)).toInt = (v.val : ℤ)), upd (ix2 e k) := by
  classical
  unfold Ideal.hostScatterAdd
  congr 1
  rw [Finset.sum_filter, sum_idx2, Finset.sum_filter]
  refine Finset.sum_congr rfl (fun e _ => ?_)
  simp only [resultIdx_rows d huw hiw hsd hivd]
  by_cases hP : (idx (ix2 e 0)).toInt = (v.val : ℤ)
  · simp [hP]
  · simp [hP]

/-- The same for the scatter-add operation at the ideal instance (any float format). -/
theorem scatterAdd_rows {φ : FTy} {N D n w : Nat} (d : ScatterDims ⟨2, ![N, D]⟩ ⟨2, ![n, 1]⟩ ⟨2, ![n, D]⟩)
    (huw : d.updateWindowDims = [1]) (hiw : d.insertedWindowDims = [0])
    (hsd : d.scatterDimsToOperandDims = [0]) (hivd : d.indexVectorDim = 1)
    (x : FVec Ideal ⟨2, ![N, D]⟩ φ) (idx : IVec ⟨2, ![n, 1]⟩ w)
    (upd : FVec Ideal ⟨2, ![n, D]⟩ φ) (v : Fin N) (k : Fin D) :
    Host.scatterAdd (F := Ideal) d x idx upd (ix2 v k)
      = x (ix2 v k)
        + ∑ e ∈ Finset.univ.filter (fun e : Fin n => (idx (ix2 e 0)).toInt = (v.val : ℤ)), upd (ix2 e k) := by
  unfold Host.scatterAdd
  rw [Ideal.hostScatterAdd_def]
  exact hostScatterAdd_rows d huw hiw hsd hivd x idx upd v k

/-! ## The scatter-add over a vector of `N` elements -/

/-- A rank-1 index set is its one coordinate range … -/
def idxEquiv1 {n : Nat} : (⟨1, ![n]⟩ : Shape).Idx ≃ Fin n where
  toFun i := i 0
  invFun e := ix1 e
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ e : Fin n, f (ix1 e) :=
  (Equiv.sum_comp (idxEquiv1 (n := n)).symm f).symm

/-- WHERE AN UPDATE ELEMENT LANDS, for a vector: update element `e` lands on operand element `v` exactly when
    the `e`-th index word, read signed, is `v`. -/
theorem resultIdx_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e 0)).toInt = (v.val : ℤ) := by
  obtain ⟨uw, iw, sd, ivd, wf⟩ := d
  simp only at huw hiw hsd hivd
  subst huw hiw hsd hivd
  have hs0 : ScatterDims.start ⟨[], [0], [0], 1, wf⟩ (ix1 e) idx 0 = (idx (ix2 e 0)).toInt := by
    unfold ScatterDims.start
    split
    · congr 2
      funext b
      apply Fin.ext
      match b with
      | ⟨0, _⟩ => rfl
      | ⟨1, _⟩ => rfl
    · next ha => exact absurd (show (0 : Fin 1) ∈ ([0] : List (Fin 1)) by decide) ha
  have hw0 : ScatterDims.window ⟨[], [0], [0], 1, wf⟩ (ix1 e) 0 = 0 := by
    unfold ScatterDims.window
    split
    · next ha => exact absurd ha (show (0 : Fin 1) ∉ ([] : List (Fin 1)) by decide)
    · rfl
  unfold ScatterDims.resultIdx?
  split
  · next h =>
    have h0 := h 0
    rw [hs0, hw0] at h0
    constructor
    · intro hf
      have hf' := Option.some.inj hf
      have e0 : (ScatterDims.start ⟨[], [0], [0], 1, wf⟩ (ix1 e) idx 0
          + (ScatterDims.window ⟨[], [0], [0], 1, wf⟩ (ix1 e) 0 : ℕ)).toNat = v.val :=
        congrArg (fun f : (⟨1, ![N]⟩ : Shape).Idx => (f 0).val) hf'
      rw [hs0, hw0] at e0
      omega
    · intro hv
      congr 1
      funext a
      apply Fin.ext
      match a with
      | ⟨0, _⟩ =>
        show (ScatterDims.start ⟨[], [0], [0], 1, wf⟩ (ix1 e) idx 0
          + (ScatterDims.window ⟨[], [0], [0], 1, wf⟩ (ix1 e) 0 : ℕ)).toNat = v.val
        rw [hs0, hw0]; omega
  · next h =>
    constructor
    · intro hf; exact absurd hf (by simp)
    · intro hv
      exfalso
      apply h
      intro a
      match a with
      | ⟨0, _⟩ =>
        show 0 ≤ ScatterDims.start ⟨[], [0], [0], 1, wf⟩ (ix1 e) idx 0
            + (ScatterDims.window ⟨[], [0], [0], 1, wf⟩ (ix1 e) 0 : ℕ)
          ∧ ScatterDims.start ⟨[], [0], [0], 1, wf⟩ (ix1 e) idx 0
            + (ScatterDims.window ⟨[], [0], [0], 1, wf⟩ (ix1 e) 0 : ℕ) < (N : ℤ)
        rw [hs0, hw0]
        have := v.isLt
        omega

/-- THE VECTOR SCATTER-ADD AT `v` (a segment sum): the operand's element plus the sum of the update elements
    `e` whose index word read signed equals `v`. -/
theorem hostScatterAdd_vec {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : (⟨1, ![N]⟩ : Shape).Idx → EReal) (idx : IVec ⟨2, ![n, 1]⟩ w)
    (upd : (⟨1, ![n]⟩ : Shape).Idx → EReal) (v : Fin N) :
    Ideal.hostScatterAdd d x idx upd (ix1 v)
      = x (ix1 v)
        + ∑ e ∈ Finset.univ.filter (fun e : Fin n => (idx (ix2 e 0)).toInt = (v.val : ℤ)), upd (ix1 e) := by
  classical
  unfold Ideal.hostScatterAdd
  congr 1
  rw [Finset.sum_filter, sum_idx1, Finset.sum_filter]
  refine Finset.sum_congr rfl (fun e _ => ?_)
  simp only [resultIdx_vec d huw hiw hsd hivd]

/-- The same for the scatter-add operation at the ideal instance (any float format). -/
theorem scatterAdd_vec {φ : FTy} {N n w : Nat} (d : ScatterDims ⟨1, ![N]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v)
        + ∑ e ∈ Finset.univ.filter (fun e : Fin n => (idx (ix2 e 0)).toInt = (v.val : ℤ)), upd (ix1 e) := by
  unfold Host.scatterAdd
  rw [Ideal.hostScatterAdd_def]
  exact hostScatterAdd_vec d huw hiw hsd hivd x idx upd v

end Cert.LibScatterGatherRows
-- ==== Proof.LibWordResidue.lean ====
import Idealize.ShloMosaic.PureOps.Ideal

/-!
# Residues and small values of 32-bit index words

Facts about 32-bit words used as array indices.

* The residue modulo 8 of a word. The truncated remainder of a word by 8 has the sign of the word; adding 8 to it
  exactly when it is negative gives the floor remainder, and since 8 divides 2 ^ 32 that floor remainder is the
  residue of the word's unsigned value, whichever way the top bit is read (floorRem8). Keeping the low three bits
  gives the same residue (and7).
* Small non-negative words. A word below 2 ^ 31 is not negative under the signed compare, so adding a length to it only
  when it is negative leaves it unchanged (wrap_small), and clamping its signed value into 0 … N − 1 leaves it unchanged
  when it is already below N (clamp_small).
* The flat index 64 a + 8 b + c of three coordinates below 8, computed on words, is the word of that number
  (flat_words); an arithmetic shift right by one of a word below 2 ^ 31 halves it (shr1) and its low bit is its parity
  (and1); two numbers below 2 ^ 32 have the same word exactly when they are equal (eq_ofNat_iff).
* A one-bit word widened to 32 bits and read as a real number is 1 if the bit is set and 0 otherwise (sitofp_bit);
  the equality compare of two words is 1 exactly when they are equal (cmpi_eq_one_iff).
-/

namespace Cert.LibWordResidue

open Idealize.ShloMosaic

/-- The word of a truth value is 1 exactly when it is true. -/
private theorem ofBool_eq_one {b : Bool} : BitVec.ofBool b = 1#1 ↔ b = true := by cases b <;> decide

/-- A conjunction of one-bit words is 1 exactly when both are. -/
private theorem andi_eq_one {c d : BitVec 1} : IntOp.andi c d = 1#1 ↔ c = 1#1 ∧ d = 1#1 := by revert c d; decide

/-- A one-bit word differs from 0 exactly when it is 1. -/
private theorem ne_zero_bit {c : BitVec 1} : IntOp.cmpi .ne c 0#1 = 1#1 ↔ c = 1#1 := by revert c; decide

/-- The signed compare with zero is 1 exactly when the top bit is set. -/
private theorem slt_zero_iff (r : BitVec 32) : IntOp.cmpi .slt r 0#32 = 1#1 ↔ 2 ^ 31 ≤ r.toNat := by
  have e0 : (0#32 : BitVec 32).toInt = 0 := by decide
  simp only [IntOp.cmpi, ofBool_eq_one, BitVec.slt_iff_toInt_lt, e0]
  rw [BitVec.toInt_neg_iff]
  omega

/-- 8 is not a corner of signed division: the remainder by it is the truncated remainder. -/
private theorem remsi8 (w : BitVec 32) : IntOp.remsi .host w 8#32 = w.srem 8#32 := by
  refine if_neg ?_
  rintro (h | ⟨-, h⟩) <;> revert h <;> decide

/-- The test "the remainder and the modulus 8 differ in sign, and the remainder is not 0" is 1 exactly when the
    remainder is negative. -/
private theorem negTest_iff (r : BitVec 32) :
    IntOp.andi (IntOp.cmpi .ne (IntOp.cmpi .slt r 0#32) (IntOp.cmpi .slt (8#32 : BitVec 32) 0#32)) (IntOp.cmpi .ne r 0#32) = 1#1
      ↔ 2 ^ 31 ≤ r.toNat := by
  have h8 : IntOp.cmpi .slt (8#32 : BitVec 32) 0#32 = 0#1 := by decide
  rw [h8, andi_eq_one, ne_zero_bit, slt_zero_iff]
  constructor
  · exact fun h => h.1
  · intro h
    refine ⟨h, ?_⟩
    simp only [IntOp.cmpi, ofBool_eq_one, bne_iff_ne, ne_eq]
    rintro rfl
    exact absurd h (by decide)

/-- The unsigned value of the truncated remainder by 8: the residue for a word with a clear top bit, the negated
    residue of the negated word otherwise. -/
private theorem toNat_srem8 (w : BitVec 32) :
    (w.srem 8#32).toNat = if 2 * w.toNat < 2 ^ 32 then w.toNat % 8 else (2 ^ 32 - (2 ^ 32 - w.toNat) % 8) % 2 ^ 32 := by
  have h8m : (8#32 : BitVec 32).msb = false := by decide
  have h8n : (8#32 : BitVec 32).toNat = 8 := by decide
  have hb := w.isLt
  rw [BitVec.srem_eq, h8m]
  rcases hm : w.msb with _ | _
  · have hlt := BitVec.msb_eq_false_iff_two_mul_lt.1 hm
    show (w % 8#32).toNat = _
    rw [BitVec.toNat_umod, h8n, if_pos hlt]
  · have hge := BitVec.msb_eq_true_iff_two_mul_ge.1 hm
    show (-((-w) % 8#32)).toNat = _
    rw [BitVec.toNat_neg, BitVec.toNat_umod, BitVec.toNat_neg, h8n, if_neg (by omega)]
    have : (2 ^ 32 - w.toNat) % 2 ^ 32 = 2 ^ 32 - w.toNat := Nat.mod_eq_of_lt (by omega)
    rw [this]

theorem floorRem8 (w : BitVec 32) :
    Scalar.select (IntOp.andi (IntOp.cmpi .ne (IntOp.cmpi .slt (IntOp.remsi .host w 8#32) 0#32) (IntOp.cmpi .slt (8#32 : BitVec 32) 0#32)) (IntOp.cmpi .ne (IntOp.remsi .host w 8#32) 0#32))
      (IntOp.addi (IntOp.remsi .host w 8#32) 8#32) (IntOp.remsi .host w 8#32) = BitVec.ofNat 32 (w.toNat % 8) := by
  rw [remsi8]
  have hr := toNat_srem8 w
  have hb := w.isLt
  have h8n : (8#32 : BitVec 32).toNat = 8 := by decide
  unfold Scalar.select
  split
  · next hc =>
    have hneg := (negTest_iff _).1 hc
    apply BitVec.eq_of_toNat_eq
    show ((w.srem 8#32) + 8#32).toNat = _
    rw [BitVec.toNat_add, h8n, BitVec.toNat_ofNat]
    split at hr <;> omega
  · next hc =>
    have hneg : ¬ 2 ^ 31 ≤ (w.srem 8#32).toNat := fun h => hc ((negTest_iff _).2 h)
    apply BitVec.eq_of_toNat_eq
    rw [BitVec.toNat_ofNat]
    split at hr <;> omega

theorem and7 (w : BitVec 32) : IntOp.andi w 7#32 = BitVec.ofNat 32 (w.toNat % 8) := by
  apply BitVec.eq_of_toNat_eq
  show (w &&& 7#32).toNat = _
  have h7 : (7#32 : BitVec 32).toNat = 2 ^ 3 - 1 := by decide
  rw [BitVec.toNat_and, h7, Nat.and_two_pow_sub_one_eq_mod, BitVec.toNat_ofNat]
  omega

theorem wrap_small (x n : BitVec 32) (hx : x.toNat < 2 ^ 31) : Scalar.select (IntOp.cmpi .slt x 0#32) (IntOp.addi x n) x = x := by
  unfold Scalar.select
  refine if_neg fun hc => ?_
  have := (slt_zero_iff x).1 hc
  omega

theorem clamp_small (x : BitVec 32) (N : Nat) (hx : x.toNat < N) (hN : N ≤ 2 ^ 31) : min x.toInt.toNat (N - 1) = x.toNat := by
  rw [BitVec.toInt_eq_toNat_of_lt (by omega)]
  omega

theorem flat_words (a b c : Nat) (ha : a < 8) (hb : b < 8) (hc : c < 8) :
    IntOp.addi (IntOp.addi (IntOp.muli (BitVec.ofNat 32 a) 64#32) (IntOp.muli (BitVec.ofNat 32 b) 8#32)) (BitVec.ofNat 32 c) = BitVec.ofNat 32 (a * 64 + b * 8 + c) := by
  show BitVec.ofNat 32 a * BitVec.ofNat 32 64 + BitVec.ofNat 32 b * BitVec.ofNat 32 8 + BitVec.ofNat 32 c = _
  rw [BitVec.ofNat_add, BitVec.ofNat_add, BitVec.ofNat_mul, BitVec.ofNat_mul]

theorem shr1 (j : Nat) (hj : j < 2 ^ 31) : IntOp.shrsi .vector (BitVec.ofNat 32 j) 1#32 = BitVec.ofNat 32 (j / 2) := by
  have h1 : (1#32 : BitVec 32).toNat = 1 := by decide
  have hm : (BitVec.ofNat 32 j).msb = false := by
    rw [BitVec.msb_eq_false_iff_two_mul_lt, BitVec.toNat_ofNat]; omega
  unfold IntOp.shrsi
  rw [if_pos (by rw [h1]; omega), BitVec.sshiftRight_eq', h1, BitVec.sshiftRight_eq_of_msb_false hm]
  apply BitVec.eq_of_toNat_eq
  rw [BitVec.toNat_ushiftRight, BitVec.toNat_ofNat, BitVec.toNat_ofNat, Nat.shiftRight_eq_div_pow]
  omega

theorem and1 (j : Nat) (hj : j < 2 ^ 32) : IntOp.andi (BitVec.ofNat 32 j) 1#32 = BitVec.ofNat 32 (j % 2) := by
  apply BitVec.eq_of_toNat_eq
  show (BitVec.ofNat 32 j &&& 1#32).toNat = _
  have h1 : (1#32 : BitVec 32).toNat = 1 := by decide
  rw [BitVec.toNat_and, h1, Nat.and_one_is_mod, BitVec.toNat_ofNat, BitVec.toNat_ofNat]
  omega

theorem eq_ofNat_iff (a b : Nat) (ha : a < 2 ^ 32) (hb : b < 2 ^ 32) : (BitVec.ofNat 32 a = BitVec.ofNat 32 b) ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem sitofp_bit (b : BitVec 1) : ((((b.setWidth 32).toInt : ℝ)) : EReal) = if b = 1#1 then 1 else 0 := by
  rcases BitVec.eq_zero_or_eq_one b with rfl | rfl
  · have e : ((0#1 : BitVec 1).setWidth 32).toInt = 0 := by decide
    rw [e, if_neg (by decide), Int.cast_zero, EReal.coe_zero]
  · have e : ((1#1 : BitVec 1).setWidth 32).toInt = 1 := by decide
    rw [e, if_pos rfl, Int.cast_one, EReal.coe_one]

theorem cmpi_eq_one_iff (x y : BitVec 32) : IntOp.cmpi .eq x y = 1#1 ↔ x = y := by
  simp only [IntOp.cmpi, ofBool_eq_one, beq_iff_eq]

end Cert.LibWordResidue
-- ==== Proof.RefValue.lean ====
import proofs.«402731_j85882166050871_3_alg».proof.Proof.RefRun
import proofs.«402731_j85882166050871_3_alg».proof.Proof.Spec
import proofs.«402731_j85882166050871_3_alg».proof.Proof.LibScatterGatherRows
import proofs.«402731_j85882166050871_3_alg».proof.Proof.LibWordResidue
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo Idealize.ShloMosaic.ValueIdx

/-! ## The reference's stages, as functions of the argument arrays -/

/-- A word at every position. -/
abbrev splat (w : BitVec 32) : IVec S1048576 32 :=
  broadcastInDim S1048576 ![] bcast_S_S1048576 (constantI S_ 32 w)

/-- The divisor as the reference computes it: 8, or 1 were it 0. -/
def dvs : IVec S_ 32 :=
  select (cmpi .eq (constantI S_ 32 8#32) (constantI S_ 32 0#32)) (constantI S_ 32 1#32) (constantI S_ 32 8#32)

/-- The floor remainder by 8 of an array of words, as the reference spells it: the truncated remainder, plus the
    divisor where the remainder is not zero and its sign differs from the divisor's. -/
def frem (x : IVec S1048576 32) : IVec S1048576 32 :=
  select
    (andi
      (cmpi .ne (cmpi .slt (Host.remsi x (broadcastInDim S1048576 ![] bcast_S_S1048576 dvs)) (splat 0#32))
        (broadcastInDim S1048576 ![] bcast_S_S1048576 (cmpi .slt dvs (constantI S_ 32 0#32))))
      (cmpi .ne (Host.remsi x (broadcastInDim S1048576 ![] bcast_S_S1048576 dvs)) (splat 0#32)))
    (addi (Host.remsi x (broadcastInDim S1048576 ![] bcast_S_S1048576 dvs)) (broadcastInDim S1048576 ![] bcast_S_S1048576 dvs))
    (Host.remsi x (broadcastInDim S1048576 ![] bcast_S_S1048576 dvs))

/-- An array of row numbers as a column, a negative one first moved up by the number of rows `n`. -/
def wrapCol (n : BitVec 32) (x : IVec S1048576 32) : IVec S1048576x1 32 :=
  broadcastInDim S1048576x1 ![0] bcast_S1048576_S1048576x1_0
    (select (cmpi .slt x (splat 0#32)) (addi x (splat n)) x)

/-- Per position, the product of the basis row named by `j` with the embedding row named by `tok`, summed over the
    64 columns. -/
def rowProd (B : FVec Ideal S8x64 .f32) (E : FVec Ideal S26x64 .f32) (tok j : IVec S1048576 32) : FVec Ideal S1048576 .f32 :=
  Host.reduceAdd
    (mulf (Host.gather gather_S8x64_S1048576x1_S1048576x64_1_0_n_n_0_1_164 B (wrapCol 8#32 j))
      (Host.gather gather_S26x64_S1048576x1_S1048576x64_1_0_n_n_0_1_164 E (wrapCol 26#32 tok)))
    (constant (F := Ideal) S_ .f32 0x00000000#32) reducesTo_S1048576x64_S1048576_d1 h_S_

/-- The flat coefficient index `64 j1 + 8 j2 + j3` of three arrays of basis indices. -/
def flatIdx (j1 j2 j3 : IVec S1048576 32) : IVec S1048576 32 :=
  addi (addi (muli j1 (splat 64#32)) (muli j2 (splat 8#32))) j3

/-- The reference's result as one function of the nine argument arrays. -/
def refOut (E : FVec Ideal S26x64 .f32) (A : FVec Ideal S64x512 .f32) (Bx By Bz : FVec Ideal S8x64 .f32)
    (tok k1 k2 k3 : IVec S1048576 32) : FVec Ideal S1048576x64 .f32 :=
  mulf
    (broadcastInDim S1048576x64 ![0, 1] bcast_S1048576x1_S1048576x64_0_1
      (broadcastInDim S1048576x1 ![0] bcast_S1048576_S1048576x1_0
        (mulf (mulf (rowProd Bx E tok (frem k1)) (rowProd By E tok (frem k2))) (rowProd Bz E tok (frem k3)))))
    (Host.gather gather_S512x64_S1048576x1_S1048576x64_1_0_n_n_0_1_164
      (transpose S512x64 [1, 0] A transposes_S64x512_S512x64_1_0)
      (wrapCol 512#32 (flatIdx (frem k1) (frem k2) (frem k3))))

attribute [local irreducible] Host.gather Host.reduceAdd in
set_option maxRecDepth 8192 in
set_option maxHeartbeats 1600000 in
/-- The result buffer after the operations is that function of the argument buffers' contents. -/
theorem after_out (V : Valuation τ sig (Elt Ideal)) :
    (after (ops (F := Ideal)) V (main_v55 : DevRef τ sig) : FVec Ideal S1048576x64 .f32)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

/-! ## The stages read at a position -/

open Cert.LibWordResidue in
/-- The floor remainder at a position is the word's residue modulo 8. -/
theorem frem_apply (x : IVec S1048576 32) (n : Fin 1048576) :
    frem x (ix1 n) = BitVec.ofNat 32 ((x (ix1 n)).toNat % 8) := by
  have h8 : Scalar.select (IntOp.cmpi .eq (8#32 : BitVec 32) 0#32) 1#32 8#32 = 8#32 := by decide
  show Scalar.select
      (IntOp.andi
        (IntOp.cmpi .ne
          (IntOp.cmpi .slt (IntOp.remsi .host (x (ix1 n)) (Scalar.select (IntOp.cmpi .eq (8#32 : BitVec 32) 0#32) 1#32 8#32)) 0#32)
          (IntOp.cmpi .slt (Scalar.select (IntOp.cmpi .eq (8#32 : BitVec 32) 0#32) 1#32 8#32) 0#32))
        (IntOp.cmpi .ne (IntOp.remsi .host (x (ix1 n)) (Scalar.select (IntOp.cmpi .eq (8#32 : BitVec 32) 0#32) 1#32 8#32)) 0#32))
      (IntOp.addi (IntOp.remsi .host (x (ix1 n)) (Scalar.select (IntOp.cmpi .eq (8#32 : BitVec 32) 0#32) 1#32 8#32))
        (Scalar.select (IntOp.cmpi .eq (8#32 : BitVec 32) 0#32) 1#32 8#32))
      (IntOp.remsi .host (x (ix1 n)) (Scalar.select (IntOp.cmpi .eq (8#32 : BitVec 32) 0#32) 1#32 8#32))
    = BitVec.ofNat 32 ((x (ix1 n)).toNat % 8)
  rw [h8]
  exact floorRem8 (x (ix1 n))

/-- The floor remainder at a position, as a number. -/
theorem frem_toNat (x : IVec S1048576 32) (n : Fin 1048576) :
    (frem x (ix1 n)).toNat = (x (ix1 n)).toNat % 8 := by
  rw [frem_apply, BitVec.toNat_ofNat]
  exact Nat.mod_eq_of_lt (by omega)

/-- A row number below 2^31 is kept by the wrap; the column reads it at its position. -/
theorem wrapCol_apply (nw : BitVec 32) (x : IVec S1048576 32) (n : Fin 1048576) (hx : (x (ix1 n)).toNat < 2 ^ 31) :
    wrapCol nw x (ix2 n 0) = x (ix1 n) := by
  unfold wrapCol
  refine (broadcastInDim_apply _ _ _ (ix2 n 0) (ix1 n) (fun a => match a with | ⟨0, _⟩ => rfl)).trans ?_
  show Scalar.select (IntOp.cmpi .slt (x (ix1 n)) 0#32) (IntOp.addi (x (ix1 n)) nw) (x (ix1 n)) = x (ix1 n)
  exact Cert.LibWordResidue.wrap_small _ _ hx

/-- A row gather through a wrapped column of row numbers in range reads the named row. -/
theorem gather_wrap {N : Nat} (d : GatherDims ⟨2, ![N, 64]⟩ ⟨2, ![1048576, 1]⟩ ⟨2, ![1048576, 64]⟩)
    (hoff : d.offsetDims = [1]) (hcoll : d.collapsedSliceDims = [0]) (hob : d.operandBatchingDims = [])
    (hsim : d.startIndexMap = [0]) (hivd : d.indexVectorDim = 1)
    (T : FVec Ideal ⟨2, ![N, 64]⟩ .f32) (nw : BitVec 32) (x : IVec S1048576 32) (n : Fin 1048576) (m : Fin 64)
    (r : Fin N) (hx : (x (ix1 n)).toNat = r.val) (hN : N ≤ 2 ^ 31) :
    Host.gather d T (wrapCol nw x) (ix2 n m) = T (ix2 r m) := by
  have hr := r.isLt
  refine (Cert.LibScatterGatherRows.gather_rows d hoff hcoll hob hsim hivd T (wrapCol nw x) n m (by omega)).trans ?_
  refine congrArg (fun q : Fin N => T (ix2 q m)) (Fin.ext ?_)
  show min ((wrapCol nw x (ix2 n 0)).toInt.toNat) (N - 1) = r.val
  rw [wrapCol_apply nw x n (by omega), ← hx]
  exact Cert.LibWordResidue.clamp_small _ N (by omega) hN

/-- The row product at a position is the specification's row product, given the two row numbers. -/
theorem rowProd_apply (B : FVec Ideal S8x64 .f32) (E : FVec Ideal S26x64 .f32) (tok j : IVec S1048576 32) (n : Fin 1048576)
    (r : Fin 8) (v : Fin 26) (hj : (j (ix1 n)).toNat = r.val) (ht : (tok (ix1 n)).toNat = v.val) :
    rowProd B E tok j (ix1 n) = Cert.Spec.rowDot B E r v := by
  have hR : S1048576x64.Reduces [1] S1048576 := by decide
  unfold rowProd Cert.Spec.rowDot
  refine (hostReduceAdd_apply _ _ _ _ _).trans ?_
  refine (Ideal.hostReduceAdd_single reducesTo_S1048576x64_S1048576_d1 hR _ _ _).trans ?_
  have h0 : (constant (F := Ideal) S_ .f32 0x00000000#32) (Shape.Idx.first h_S_) = 0 := Ideal.ofBits_zero_f32
  rw [h0, zero_add]
  refine Finset.sum_congr rfl fun m _ => ?_
  have hl : hR.lift (ix1 n) m = ix2 n m := by
    funext a
    match a with
    | ⟨0, _⟩ => exact Fin.ext rfl
    | ⟨1, _⟩ => exact Fin.ext rfl
  rw [hl]
  show Host.gather gather_S8x64_S1048576x1_S1048576x64_1_0_n_n_0_1_164 B (wrapCol 8#32 j) (ix2 n m)
      * Host.gather gather_S26x64_S1048576x1_S1048576x64_1_0_n_n_0_1_164 E (wrapCol 26#32 tok) (ix2 n m)
    = E (ix2 v m) * B (ix2 r m)
  rw [gather_wrap _ rfl rfl rfl rfl rfl B 8#32 j n m r hj (by decide),
    gather_wrap _ rfl rfl rfl rfl rfl E 26#32 tok n m v ht (by decide)]
  exact mul_comm _ _

/-- The flat index at a position is the specification's flat column, as a word. -/
theorem flatIdx_toNat (k1 k2 k3 : IVec S1048576 32) (n : Fin 1048576) :
    (flatIdx (frem k1) (frem k2) (frem k3) (ix1 n)).toNat
      = (Cert.Spec.flat (k1 (ix1 n)) (k2 (ix1 n)) (k3 (ix1 n))).val := by
  have e : flatIdx (frem k1) (frem k2) (frem k3) (ix1 n)
      = BitVec.ofNat 32 ((k1 (ix1 n)).toNat % 8 * 64 + (k2 (ix1 n)).toNat % 8 * 8 + (k3 (ix1 n)).toNat % 8) := by
    show IntOp.addi (IntOp.addi (IntOp.muli (frem k1 (ix1 n)) 64#32) (IntOp.muli (frem k2 (ix1 n)) 8#32)) (frem k3 (ix1 n)) = _
    rw [frem_apply, frem_apply, frem_apply]
    exact Cert.LibWordResidue.flat_words _ _ _ (Nat.mod_lt _ (by decide)) (Nat.mod_lt _ (by decide)) (Nat.mod_lt _ (by decide))
  rw [e, BitVec.toNat_ofNat]
  show _ = (k1 (ix1 n)).toNat % 8 * 64 + (k2 (ix1 n)).toNat % 8 * 8 + (k3 (ix1 n)).toNat % 8
  have h1 := Nat.mod_lt (k1 (ix1 n)).toNat (by decide : 0 < 8)
  have h2 := Nat.mod_lt (k2 (ix1 n)).toNat (by decide : 0 < 8)
  have h3 := Nat.mod_lt (k3 (ix1 n)).toNat (by decide : 0 < 8)
  exact Nat.mod_eq_of_lt (by omega)

/-- Three row products multiplied, read at a position through the column and rectangle broadcasts. -/
theorem prod3_apply (r1 r2 r3 : FVec Ideal S1048576 .f32) (n : Fin 1048576) (k : Fin 64) :
    broadcastInDim S1048576x64 ![0, 1] bcast_S1048576x1_S1048576x64_0_1
        (broadcastInDim S1048576x1 ![0] bcast_S1048576_S1048576x1_0 (mulf (mulf r1 r2) r3)) (ix2 n k)
      = r1 (ix1 n) * r2 (ix1 n) * r3 (ix1 n) := by
  refine (broadcastInDim_apply _ _ _ (ix2 n k) (ix2 n 0)
    (fun a => match a with | ⟨0, _⟩ => rfl | ⟨1, _⟩ => rfl)).trans ?_
  refine (broadcastInDim_apply _ _ _ (ix2 n 0) (ix1 n) (fun a => match a with | ⟨0, _⟩ => rfl)).trans ?_
  rfl

attribute [local irreducible] Host.gather Host.reduceAdd in
/-- The reference's result at a position and column is the specification's value there, for a token word below 26. -/
theorem refOut_apply (E : FVec Ideal S26x64 .f32) (A : FVec Ideal S64x512 .f32) (Bx By Bz : FVec Ideal S8x64 .f32)
    (tok k1 k2 k3 : IVec S1048576 32) (n : Fin 1048576) (k : Fin 64) (ht : (tok (ix1 n)).toNat < 26) :
    refOut E A Bx By Bz tok k1 k2 k3 (ix2 n k)
      = Cert.Spec.atPos E A Bx By Bz (tok (ix1 n)) (k1 (ix1 n)) (k2 (ix1 n)) (k3 (ix1 n)) k := by
  have hv : (tok (ix1 n)).toNat = (Cert.Spec.tokRow (tok (ix1 n))).val := (Nat.mod_eq_of_lt ht).symm
  unfold refOut Cert.Spec.atPos
  refine (mulf_apply _ _ _).trans ?_
  refine congrArg₂ (· * ·) ?_ ?_
  · refine (prod3_apply _ _ _ n k).trans ?_
    rw [rowProd_apply Bx E tok (frem k1) n (Cert.Spec.low3 (k1 (ix1 n))) (Cert.Spec.tokRow (tok (ix1 n))) (frem_toNat k1 n) hv,
      rowProd_apply By E tok (frem k2) n (Cert.Spec.low3 (k2 (ix1 n))) (Cert.Spec.tokRow (tok (ix1 n))) (frem_toNat k2 n) hv,
      rowProd_apply Bz E tok (frem k3) n (Cert.Spec.low3 (k3 (ix1 n))) (Cert.Spec.tokRow (tok (ix1 n))) (frem_toNat k3 n) hv]
  · refine (gather_wrap gather_S512x64_S1048576x1_S1048576x64_1_0_n_n_0_1_164 rfl rfl rfl rfl rfl
      (transpose S512x64 [1, 0] A transposes_S64x512_S512x64_1_0) 512#32 (flatIdx (frem k1) (frem k2) (frem k3)) n k
      (Cert.Spec.flat (k1 (ix1 n)) (k2 (ix1 n)) (k3 (ix1 n))) (flatIdx_toNat k1 k2 k3 n) (by decide)).trans ?_
    exact transpose_ix2_apply A transposes_S64x512_S512x64_1_0 _ k

attribute [local irreducible] Host.gather Host.reduceAdd in
/-- The reference's result buffer after its operations, from any contents whose token words are below 26, is the
    specification's array of the nine argument arrays. -/
theorem out_eq (V : Valuation τ sig (Elt Ideal))
    (htok : ∀ n : Fin 1048576, ((V (main_arg5 : DevRef τ sig) : IVec S1048576 32) (ix1 n)).toNat < 26) :
    (after (ops (F := Ideal)) V (main_v55 : DevRef τ sig) : FVec Ideal S1048576x64 .f32)
      = Cert.Spec.G (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  refine (after_out V).trans ?_
  funext i
  obtain ⟨n, k, rfl⟩ : ∃ (n : Fin 1048576) (k : Fin 64), i = ix2 n k := ⟨i 0, i 1, eq_ix2 i⟩
  exact refOut_apply _ _ _ _ _ _ _ _ _ n k (htok n)

theorem arg0_eq (V : Valuation τ sig (Elt Ideal)) :
    after (ops (F := Ideal)) V (main_arg0 : DevRef τ sig) = V (main_arg0 : DevRef τ sig) := by
  after_results_simp
theorem arg1_eq (V : Valuation τ sig (Elt Ideal)) :
    after (ops (F := Ideal)) V (main_arg1 : DevRef τ sig) = V (main_arg1 : DevRef τ sig) := by
  after_results_simp
theorem arg2_eq (V : Valuation τ sig (Elt Ideal)) :
    after (ops (F := Ideal)) V (main_arg2 : DevRef τ sig) = V (main_arg2 : DevRef τ sig) := by
  after_results_simp
theorem arg3_eq (V : Valuation τ sig (Elt Ideal)) :
    after (ops (F := Ideal)) V (main_arg3 : DevRef τ sig) = V (main_arg3 : DevRef τ sig) := by
  after_results_simp
theorem arg4_eq (V : Valuation τ sig (Elt Ideal)) :
    after (ops (F := Ideal)) V (main_arg4 : DevRef τ sig) = V (main_arg4 : DevRef τ sig) := by
  after_results_simp
theorem arg5_eq (V : Valuation τ sig (Elt Ideal)) :
    after (ops (F := Ideal)) V (main_arg5 : DevRef τ sig) = V (main_arg5 : DevRef τ sig) := by
  after_results_simp
theorem arg6_eq (V : Valuation τ sig (Elt Ideal)) :
    after (ops (F := Ideal)) V (main_arg6 : DevRef τ sig) = V (main_arg6 : DevRef τ sig) := by
  after_results_simp
theorem arg7_eq (V : Valuation τ sig (Elt Ideal)) :
    after (ops (F := Ideal)) V (main_arg7 : DevRef τ sig) = V (main_arg7 : DevRef τ sig) := by
  after_results_simp
theorem arg8_eq (V : Valuation τ sig (Elt Ideal)) :
    after (ops (F := Ideal)) V (main_arg8 : DevRef τ sig) = V (main_arg8 : DevRef τ sig) := by
  after_results_simp

end Cert.ReferenceIdeal.RefValue

end
-- ==== Proof.PreDecode.lean ====
import proofs.«402731_j85882166050871_3_alg».proof.Pre_finite_inputs
import proofs.«402731_j85882166050871_3_alg».proof.Proof.Gen.Pre_finite_inputs
import Idealize.ShloMosaic.Lib.ValueIdx
import Idealize.ShloMosaic.Lib.ReduceAll
import Idealize.ShloMosaic.Lib.StableHlo.Predicate
import Idealize.ShloMosaic.PureOps.Ideal

noncomputable section

namespace Cert.Pre_finite_inputs.Decode

open Cert.Pre_finite_inputs Cert.Pre_finite_inputs.Gen
open Idealize.ShloMosaic Idealize.ShloMosaic.ValueIdx

/-- A rank-0 shape has one index. -/
private instance : Subsingleton S_.Idx := ⟨fun a b => funext fun d => d.elim0⟩

/-- Where the precondition holds, every token word is at least 0 and below 26 as a signed word, so its unsigned value
    is below 26. -/
theorem tok_range (a0 : FVec Ideal S26x64 .f32) (a1 : FVec Ideal S64x512 .f32) (a2 a3 a4 : FVec Ideal S8x64 .f32)
    (tok k1 k2 k3 : IVec S1048576 32)
    (h : Cert.Pre_finite_inputs.fn (F := Ideal) a0 a1 a2 a3 a4 tok k1 k2 k3 = fun _ => 1#1) (n : Fin 1048576) :
    (tok (ix1 n)).toNat < 26 := by
  have h0 := congrFun h ix0
  dsimp only [fn, fn_part1] at h0
  -- the last conjunct is the reduction by `and` of the two token tests; it is 1, so every entry of its operand is 1
  have hall := Host.reduce_andi_all _ _ _ _ ix0 (IntOp.andi_eq_one.1 h0).2 (ix1 n)
  obtain ⟨hge, hlt⟩ := IntOp.andi_eq_one.1 hall
  -- the two signed compares against the broadcast constants 0 and 26, read at the entry
  have hge' : (0#32 : BitVec 32).toInt ≤ (tok (ix1 n)).toInt := IntOp.cmpi_sge.1 hge
  have hlt' : (tok (ix1 n)).toInt < (26#32 : BitVec 32).toInt := IntOp.cmpi_slt.1 hlt
  have e0 : (0#32 : BitVec 32).toInt = 0 := by decide
  have e26 : (26#32 : BitVec 32).toInt = 26 := by decide
  rw [e0] at hge'
  rw [e26] at hlt'
  -- a word whose signed value is nonnegative reads the same unsigned
  have hc := BitVec.toInt_eq_toNat_cond (tok (ix1 n))
  have hb := (tok (ix1 n)).isLt
  split at hc <;> omega

end Cert.Pre_finite_inputs.Decode

end
-- ==== Proof.lean ====
import proofs.«402731_j85882166050871_3_alg».proof.Defs
import proofs.«402731_j85882166050871_3_alg».proof.Proof.Gen.Kernel
import proofs.«402731_j85882166050871_3_alg».proof.Proof.Gen.KernelIdeal
import proofs.«402731_j85882166050871_3_alg».proof.Proof.Gen.ReferenceIdeal
import proofs.«402731_j85882166050871_3_alg».proof.Proof.Gen.Pre_finite_inputs
import proofs.«402731_j85882166050871_3_alg».proof.Proof.KernelFrame
import proofs.«402731_j85882166050871_3_alg».proof.Proof.KernelIdealFrame
import proofs.«402731_j85882166050871_3_alg».proof.Proof.KernelFinal
import proofs.«402731_j85882166050871_3_alg».proof.Proof.RefRun
import proofs.«402731_j85882166050871_3_alg».proof.Proof.RefValue
import proofs.«402731_j85882166050871_3_alg».proof.Proof.PreDecode
import proofs.«402731_j85882166050871_3_alg».proof.Proof.Spec
import Idealize.ShloMosaic.Adequacy
import Idealize.ShloMosaic.Init

/-!
# The certificate

The kernel replaces the reference's four row gathers by one-hot products against two small tables its host code
prepares: the 26 x 24 table of every token's three families of basis products, and the coefficient matrix transposed
with its rows paired. A one-hot product selects one table entry, so at every position both programs compute

  (Σ_m E[tok, m] Bx[j1, m]) (Σ_m E[tok, m] By[j2, m]) (Σ_m E[tok, m] Bz[j3, m]) A[k, 64 j1 + 8 j2 + j3]

with `j = k mod 8` for each coordinate word (the kernel's `k & 7` and the reference's floor remainder agree on every
32-bit word). The two differ only where a token word is outside `[0, 26)`: there the reference's gather wraps or
clamps the row while the kernel's one-hot selects nothing. The precondition bounds the token words to the table's
rows, the domain on which the reference's own indexing is in range. No law used needs finite entries: the sums are
re-bracketed by commutativity only, and a one-hot factor is exactly 0 or 1.
-/

noncomputable section

namespace Cert.Proof

open Idealize.ShloMosaic Idealize.ShloMosaic.TcCoe Idealize.SL.Sem Idealize.ShloMosaic.ValueIdx

/-- Where the precondition holds, every token word of the idealized kernel's launch memory is below 26. -/
theorem tok_of_pre (m : (ℓ : Loc Cert.KernelIdeal.nD Cert.KernelIdeal.τ Cert.KernelIdeal.sig) → Buf (Elt Ideal) ℓ)
    (h : Cert.Pre_KernelIdeal m) (c : Dev Cert.KernelIdeal.nD) (n : Fin 1048576) :
    ((m ((c.tc : Thread Cert.KernelIdeal.nD Cert.KernelIdeal.τ).loc Cert.KernelIdeal.main_arg5) : IVec Cert.KernelIdeal.S1048576 32) (ix1 n)).toNat < 26 :=
  Cert.Pre_finite_inputs.Decode.tok_range _ _ _ _ _ _ _ _ _ (h c) n

theorem frame_p : Cert.frame_Kernel := fun m ρ _ => Cert.Kernel.Frm.frame m ρ

theorem frame_pi : Cert.frame_KernelIdeal := fun m ρ _ => Cert.KernelIdeal.Frm.frame m ρ

/-- The reference is a straight line of host operations none of which writes an argument. -/
theorem frame_ri : Cert.frame_ReferenceIdeal := fun m ρ _ =>
  (θ_run Cert.ReferenceIdeal.defs _ _).mono (fun _ h c => ⟨
      (h c Cert.ReferenceIdeal.main_arg0).trans (Cert.ReferenceIdeal.RefValue.arg0_eq _),
      (h c Cert.ReferenceIdeal.main_arg1).trans (Cert.ReferenceIdeal.RefValue.arg1_eq _),
      (h c Cert.ReferenceIdeal.main_arg2).trans (Cert.ReferenceIdeal.RefValue.arg2_eq _),
      (h c Cert.ReferenceIdeal.main_arg3).trans (Cert.ReferenceIdeal.RefValue.arg3_eq _),
      (h c Cert.ReferenceIdeal.main_arg4).trans (Cert.ReferenceIdeal.RefValue.arg4_eq _),
      (h c Cert.ReferenceIdeal.main_arg5).trans (Cert.ReferenceIdeal.RefValue.arg5_eq _),
      (h c Cert.ReferenceIdeal.main_arg6).trans (Cert.ReferenceIdeal.RefValue.arg6_eq _),
      (h c Cert.ReferenceIdeal.main_arg7).trans (Cert.ReferenceIdeal.RefValue.arg7_eq _),
      (h c Cert.ReferenceIdeal.main_arg8).trans (Cert.ReferenceIdeal.RefValue.arg8_eq _)⟩)
    (Cert.ReferenceIdeal.RefRun.run_main (F := Ideal) m ρ)

/-- From memories agreeing on the nine arguments, both programs end with the result array at the specification's
    function of those arguments. -/
theorem algebraic : Cert.algebraic_KernelIdeal_ReferenceIdeal := by
  intro m ρ m' ρ' hpre hagree
  have htok := fun c n => tok_of_pre m hpre c n
  refine ⟨_, Cert.KernelIdeal.Final.run m ρ htok, ?_⟩
  refine (θ_run Cert.ReferenceIdeal.defs _ _).mono (fun r h c => ?_) (Cert.ReferenceIdeal.RefRun.run_main (F := Ideal) m' ρ')
  obtain ⟨e0, e1, e2, e3, e4, e5, e6, e7, e8⟩ := hagree c
  have htok' : ∀ n : Fin 1048576, ((StableHlo.launchContents m' c (Cert.ReferenceIdeal.main_arg5 : DevRef Cert.ReferenceIdeal.τ Cert.ReferenceIdeal.sig)
      : IVec Cert.ReferenceIdeal.S1048576 32) (ix1 n)).toNat < 26 := fun n => by
    show ((m' ((c.tc : Thread Cert.ReferenceIdeal.nD Cert.ReferenceIdeal.τ).loc Cert.ReferenceIdeal.main_arg5) : IVec Cert.ReferenceIdeal.S1048576 32) (ix1 n)).toNat < 26
    rw [e5]; exact htok c n
  refine ⟨(h c Cert.ReferenceIdeal.main_v55).trans ((Cert.ReferenceIdeal.RefValue.out_eq _ htok').trans ?_),
    (h c Cert.ReferenceIdeal.main_arg0).trans (Cert.ReferenceIdeal.RefValue.arg0_eq _),
    (h c Cert.ReferenceIdeal.main_arg1).trans (Cert.ReferenceIdeal.RefValue.arg1_eq _),
    (h c Cert.ReferenceIdeal.main_arg2).trans (Cert.ReferenceIdeal.RefValue.arg2_eq _),
    (h c Cert.ReferenceIdeal.main_arg3).trans (Cert.ReferenceIdeal.RefValue.arg3_eq _),
    (h c Cert.ReferenceIdeal.main_arg4).trans (Cert.ReferenceIdeal.RefValue.arg4_eq _),
    (h c Cert.ReferenceIdeal.main_arg5).trans (Cert.ReferenceIdeal.RefValue.arg5_eq _),
    (h c Cert.ReferenceIdeal.main_arg6).trans (Cert.ReferenceIdeal.RefValue.arg6_eq _),
    (h c Cert.ReferenceIdeal.main_arg7).trans (Cert.ReferenceIdeal.RefValue.arg7_eq _),
    (h c Cert.ReferenceIdeal.main_arg8).trans (Cert.ReferenceIdeal.RefValue.arg8_eq _)⟩
  show Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
